-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel

variable [Facts]

def fn {F : FTy → Type} [FloatOps F] (main_arg0 : FVec F S1024x8192 .f32) (main_arg1 : IVec S1024x8192 32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_c_0 : IVec S_ 32 := constantI S_ 32 0#32
  let main_v4 : IVec S1024x8192 32 := broadcastInDim S1024x8192 ![] bcast_S_S1024x8192 main_c_0
  let main_v5 : IVec S1024x8192 1 := cmpi .sge main_arg1 main_v4
  let main_c_1 : IVec S_ 32 := constantI S_ 32 128#32
  let main_v6 : IVec S1024x8192 32 := broadcastInDim S1024x8192 ![] bcast_S_S1024x8192 main_c_1
  let main_v7 : IVec S1024x8192 1 := cmpi .slt main_arg1 main_v6
  let main_v8 : IVec S1024x8192 1 := andi main_v5 main_v7
  let main_cst_2 : FVec F S_ .f32 := constant S_ .f32 0xBF800000#32
  let main_v9 : FVec F S1024x8192 .f32 := broadcastInDim S1024x8192 ![] bcast_S_S1024x8192 main_cst_2
  let main_v10 : IVec S1024x8192 1 := cmpf .ogt main_arg0 main_v9
  let main_v11 : IVec S1024x8192 1 := andi main_v8 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v3 main_v12
  main_v13
-- ==== Kernel.lean ====
abbrev S1024x8192 : Shape := ⟨2, ![1024, 8192]⟩
abbrev S64x128 : Shape := ⟨2, ![64, 128]⟩
abbrev S128x8192 : Shape := ⟨2, ![128, 8192]⟩
abbrev S8x128 : Shape := ⟨2, ![8, 128]⟩
abbrev S1x128x8192 : Shape := ⟨3, ![1, 128, 8192]⟩
abbrev S1 : Shape := ⟨1, ![1]⟩
abbrev S1x1x1 : Shape := ⟨3, ![1, 1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S1024x8192, .f32⟩
  | .hbm, ⟨1, _⟩ => ⟨S1024x8192, .i32⟩
  | .hbm, ⟨2, _⟩ => ⟨S64x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .i32⟩
  | .local _ .vmem, ⟨3, _⟩ => ⟨S128x8192, .i32⟩
  | .local _ .vmem, ⟨4, _⟩ => ⟨S8x128, .f32⟩
  | .local _ .vmem, ⟨5, _⟩ => ⟨S8x128, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  iota_S128x8192_d1_w32 : S128x8192.Iotas .tc 32 [1]
  rotates_S128x8192_d1 : S128x8192.Rotates 1 none
  shapeCasts_S128x8192_S1x128x8192 : S128x8192.ShapeCasts S1x128x8192
  reduces_S1x128x8192_S1 : S1x128x8192.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S1024x8192.size a
  hwx0_0 : ∀ i : grid0.Coords, EltTy.bits .f32 = 32 ∨ (Rect.block (s := S1024x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S1024x8192.size a
  hwx0_1 : ∀ i : grid0.Coords, EltTy.bits .i32 = 32 ∨ (Rect.block (s := S1024x8192) S128x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x8192 : Shape := ⟨2, ![1024, 8192]⟩
abbrev S6 : Shape := ⟨1, ![6]⟩
abbrev S_ : Shape := ⟨0, ![]⟩
abbrev S128 : Shape := ⟨1, ![128]⟩
abbrev S6x1 : Shape := ⟨2, ![6, 1]⟩
abbrev S1024x8192x1 : Shape := ⟨3, ![1024, 8192, 1]⟩
abbrev S1024x8191 : Shape := ⟨2, ![1024, 8191]⟩
abbrev S8192 : Shape := ⟨1, ![8192]⟩
abbrev S1x8192 : Shape := ⟨2, ![1, 8192]⟩

abbrev nBuf : Space → Nat
  | .hbm => 117
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .i32⟩
  | .hbm, ⟨2, _⟩ => ⟨S6, .f32⟩
  | .hbm, ⟨3, _⟩ => ⟨S6, .i32⟩
  | .hbm, ⟨4, _⟩ => ⟨S6, .i1⟩
  | .hbm, ⟨5, _⟩ => ⟨S6, .i1⟩
  | .hbm, ⟨6, _⟩ => ⟨S6, .i32⟩
  | .hbm, ⟨7, _⟩ => ⟨S6, .i1⟩
  | .hbm, ⟨8, _⟩ => ⟨S_, .f32⟩
  | .hbm, ⟨9, _⟩ => ⟨S128, .f32⟩
  | .hbm, ⟨10, _⟩ => ⟨S_, .i32⟩
  | .hbm, ⟨11, _⟩ => ⟨S6, .i32⟩
  | .hbm, ⟨12, _⟩ => ⟨S6, .i32⟩
  | .hbm, ⟨13, _⟩ => ⟨S6, .i32⟩
  | .hbm, ⟨14, _⟩ => ⟨S6x1, .i32⟩
  | .hbm, ⟨15, _⟩ => ⟨S128, .f32⟩
  | .hbm, ⟨16, _⟩ => ⟨S_, .i1⟩
  | .hbm, ⟨17, _⟩ => ⟨S128, .i1⟩
  | .hbm, ⟨18, _⟩ => ⟨S_, .i32⟩
  | .hbm, ⟨19, _⟩ => ⟨S6, .i32⟩
  | .hbm, ⟨20, _⟩ => ⟨S6, .i32⟩
  | .hbm, ⟨21, _⟩ => ⟨S6, .i32⟩
  | .hbm, ⟨22, _⟩ => ⟨S6x1, .i32⟩
  | .hbm, ⟨23, _⟩ => ⟨S_, .i1⟩
  | .hbm, ⟨24, _⟩ => ⟨S6, .i1⟩
  | .hbm, ⟨25, _⟩ => ⟨S128, .i1⟩
  | .hbm, ⟨26, _⟩ => ⟨S_, .i1⟩
  | .hbm, ⟨27, _⟩ => ⟨S128, .i1⟩
  | .hbm, ⟨28, _⟩ => ⟨S_, .i32⟩
  | .hbm, ⟨29, _⟩ => ⟨S6, .i32⟩
  | .hbm, ⟨30, _⟩ => ⟨S6, .i32⟩
  | .hbm, ⟨31, _⟩ => ⟨S6, .i32⟩
  | .hbm, ⟨32, _⟩ => ⟨S6x1, .i32⟩
  | .hbm, ⟨33, _⟩ => ⟨S_, .i1⟩
  | .hbm, ⟨34, _⟩ => ⟨S6, .i1⟩
  | .hbm, ⟨35, _⟩ => ⟨S128, .i1⟩
  | .hbm, ⟨36, _⟩ => ⟨S_, .i32⟩
  | .hbm, ⟨37, _⟩ => ⟨S1024x8192, .i32⟩
  | .hbm, ⟨38, _⟩ => ⟨S1024x8192, .i1⟩
  | .hbm, ⟨39, _⟩ => ⟨S_, .i32⟩
  | .hbm, ⟨40, _⟩ => ⟨S1024x8192, .i32⟩
  | .hbm, ⟨41, _⟩ => ⟨S1024x8192, .i32⟩
  | .hbm, ⟨42, _⟩ => ⟨S1024x8192, .i32⟩
  | .hbm, ⟨43, _⟩ => ⟨S1024x8192x1, .i32⟩
  | .hbm, ⟨44, _⟩ => ⟨S1024x8192, .i1⟩
  | .hbm, ⟨45, _⟩ => ⟨S_, .i32⟩
  | .hbm, ⟨46, _⟩ => ⟨S1024x8192, .i32⟩
  | .hbm, ⟨47, _⟩ => ⟨S1024x8192, .i1⟩
  | .hbm, ⟨48, _⟩ => ⟨S_, .i32⟩
  | .hbm, ⟨49, _⟩ => ⟨S1024x8192, .i32⟩
  | .hbm, ⟨50, _⟩ => ⟨S1024x8192, .i32⟩
  | .hbm, ⟨51, _⟩ => ⟨S1024x8192, .i32⟩
  | .hbm, ⟨52, _⟩ => ⟨S1024x8192x1, .i32⟩
  | .hbm, ⟨53, _⟩ => ⟨S1024x8192, .f32⟩
  | .hbm, ⟨54, _⟩ => ⟨S1024x8192, .i1⟩
  | .hbm, ⟨55, _⟩ => ⟨S1024x8192, .i1⟩
  | .hbm, ⟨56, _⟩ => ⟨S1024x8192, .f32⟩
  | .hbm, ⟨57, _⟩ => ⟨S_, .f32⟩
  | .hbm, ⟨58, _⟩ => ⟨S_, .f32⟩
  | .hbm, ⟨59, _⟩ => ⟨S1024x8192, .f32⟩
  | .hbm, ⟨60, _⟩ => ⟨S1024x8192, .f32⟩
  | .hbm, ⟨61, _⟩ => ⟨S1024x8191, .f32⟩
  | .hbm, ⟨62, _⟩ => ⟨S_, .i32⟩
  | .hbm, ⟨63, _⟩ => ⟨S_, .f32⟩
  | .hbm, ⟨64, _⟩ => ⟨S1024x8192, .f32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S1x8192, .i1⟩
  | .hbm, ⟨70, _⟩ => ⟨S_, .i32⟩
  | .hbm, ⟨71, _⟩ => ⟨S1024x8192, .i32⟩
  | .hbm, ⟨72, _⟩ => ⟨S1024x8192, .i1⟩
  | .hbm, ⟨73, _⟩ => ⟨S_, .i32⟩
  | .hbm, ⟨74, _⟩ => ⟨S1024x8192, .i32⟩
  | .hbm, ⟨75, _⟩ => ⟨S1024x8192, .i32⟩
  | .hbm, ⟨76, _⟩ => ⟨S1024x8192, .i32⟩
  | .hbm, ⟨77, _⟩ => ⟨S1024x8192x1, .i32⟩
  | .hbm, ⟨78, _⟩ => ⟨S1024x8192, .i1⟩
  | .hbm, ⟨79, _⟩ => ⟨S1024x8192, .i1⟩
  | .hbm, ⟨80, _⟩ => ⟨S1024x8192, .i1⟩
  | .hbm, ⟨81, _⟩ => ⟨S_, .f32⟩
  | .hbm, ⟨82, _⟩ => ⟨S1024x8192, .f32⟩
  | .hbm, ⟨83, _⟩ => ⟨S1024x8192, .f32⟩
  | .hbm, ⟨84, _⟩ => ⟨S1024x8192, .i1⟩
  | .hbm, ⟨85, _⟩ => ⟨S1024x8192, .i1⟩
  | .hbm, ⟨86, _⟩ => ⟨S_, .f32⟩
  | .hbm, ⟨87, _⟩ => ⟨S1024x8192, .f32⟩
  | .hbm, ⟨88, _⟩ => ⟨S1024x8192, .f32⟩
  | .hbm, ⟨89, _⟩ => ⟨S1024x8192, .f32⟩
  | .hbm, ⟨90, _⟩ => ⟨S_, .f32⟩
  | .hbm, ⟨91, _⟩ => ⟨S_, .f32⟩
  | .hbm, ⟨92, _⟩ => ⟨S1024x8192, .f32⟩
  | .hbm, ⟨93, _⟩ => ⟨S1024x8192, .f32⟩
  | .hbm, ⟨94, _⟩ => ⟨S1024x8192, .f32⟩
  | .hbm, ⟨95, _⟩ => ⟨S1024x8191, .f32⟩
  | .hbm, ⟨96, _⟩ => ⟨S_, .i32⟩
  | .hbm, ⟨97, _⟩ => ⟨S_, .f32⟩
  | .hbm, ⟨98, _⟩ => ⟨S1024x8192, .f32⟩
  | .hbm, ⟨99, _⟩ => ⟨S1024x8192, .f32⟩
  | .hbm, ⟨100, _⟩ => ⟨S1024x8192, .f32⟩
  | .hbm, ⟨101, _⟩ => ⟨S_, .f32⟩
  | .hbm, ⟨102, _⟩ => ⟨S1024x8192, .f32⟩
  | .hbm, ⟨103, _⟩ => ⟨S1024x8192, .f32⟩
  | .hbm, ⟨104, _⟩ => ⟨S1024x8192, .f32⟩
  | .hbm, ⟨105, _⟩ => ⟨S_, .f32⟩
  | .hbm, ⟨106, _⟩ => ⟨S1024x8192, .f32⟩
  | .hbm, ⟨107, _⟩ => ⟨S1024x8192, .f32⟩
  | .hbm, ⟨108, _⟩ => ⟨S1024x8192, .f32⟩
  | .hbm, ⟨109, _⟩ => ⟨S1024x8192, .f32⟩
  | .hbm, ⟨110, _⟩ => ⟨S1024x8192, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_cst_4 : Ref sig .tc := ⟨.hbm, 8, rfl⟩
abbrev main_v0 : Ref sig .tc := ⟨.hbm, 9, rfl⟩
abbrev main_c_5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_6 : Ref sig .tc := ⟨.hbm, 16, rfl⟩
abbrev main_v6 : Ref sig .tc := ⟨.hbm, 17, rfl⟩
abbrev main_c_7 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_8 : Ref sig .tc := ⟨.hbm, 23, rfl⟩
abbrev main_v11 : Ref sig .tc := ⟨.hbm, 24, rfl⟩
abbrev main_v12 : Ref sig .tc := ⟨.hbm, 25, rfl⟩
abbrev main_c_9 : Ref sig .tc := ⟨.hbm, 26, rfl⟩
abbrev main_v13 : Ref sig .tc := ⟨.hbm, 27, rfl⟩
abbrev main_c_10 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_11 : Ref sig .tc := ⟨.hbm, 33, rfl⟩
abbrev main_v18 : Ref sig .tc := ⟨.hbm, 34, rfl⟩
abbrev main_v19 : Ref sig .tc := ⟨.hbm, 35, rfl⟩
abbrev main_c_12 : Ref sig .tc := ⟨.hbm, 36, rfl⟩
abbrev main_v20 : Ref sig .tc := ⟨.hbm, 37, rfl⟩
abbrev main_v21 : Ref sig .tc := ⟨.hbm, 38, rfl⟩
abbrev main_c_13 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_14 : Ref sig .tc := ⟨.hbm, 45, rfl⟩
abbrev main_v27 : Ref sig .tc := ⟨.hbm, 46, rfl⟩
abbrev main_v28 : Ref sig .tc := ⟨.hbm, 47, rfl⟩
abbrev main_c_15 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_16 : Ref sig .tc := ⟨.hbm, 57, rfl⟩
abbrev main_call0_v0 : Ref sig .tc := ⟨.hbm, 58, rfl⟩
abbrev main_call0_v1 : Ref sig .tc := ⟨.hbm, 59, rfl⟩
abbrev main_v37 : Ref sig .tc := ⟨.hbm, 60, rfl⟩
abbrev main_v38 : Ref sig .tc := ⟨.hbm, 61, rfl⟩
abbrev main_c_17 : Ref sig .tc := ⟨.hbm, 62, rfl⟩
abbrev main_call1_v0 : Ref sig .tc := ⟨.hbm, 63, rfl⟩
abbrev main_v39 : Ref sig .tc := ⟨.hbm, 64, rfl⟩
abbrev main_v40 : Ref sig .tc := ⟨.hbm, 65, rfl⟩
abbrev main_c_18 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_19 : Ref sig .tc := ⟨.hbm, 70, rfl⟩
abbrev main_v44 : Ref sig .tc := ⟨.hbm, 71, rfl⟩
abbrev main_v45 : Ref sig .tc := ⟨.hbm, 72, rfl⟩
abbrev main_c_20 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_21 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_22 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_23 : Ref sig .tc := ⟨.hbm, 90, rfl⟩
abbrev main_call2_v0 : Ref sig .tc := ⟨.hbm, 91, rfl⟩
abbrev main_call2_v1 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_24 : Ref sig .tc := ⟨.hbm, 96, rfl⟩
abbrev main_call3_v0 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_25 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_26 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_27 : Ref sig .tc := ⟨.hbm, 111, rfl⟩
abbrev main_v74 : Ref sig .tc := ⟨.hbm, 112, rfl⟩
abbrev main_cst_28 : Ref sig .tc := ⟨.hbm, 113, rfl⟩
abbrev main_v75 : Ref sig .tc := ⟨.hbm, 114, rfl⟩
abbrev main_cst_29 : Ref sig .tc := ⟨.hbm, 115, rfl⟩
abbrev main_v76 : Ref sig .tc := ⟨.hbm, 116, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S_S6 : S_.BroadcastsInDim S6 (![] : Fin 0 → Fin S6.rank)
  bcast_S6_S6x1_0 : S6.BroadcastsInDim S6x1 (![0] : Fin 1 → Fin S6x1.rank)
  bcast_S_S1024x8192 : S_.BroadcastsInDim S1024x8192 (![] : Fin 0 → Fin S1024x8192.rank)
  bcast_S1024x8192_S1024x8192x1_0_1 : S1024x8192.BroadcastsInDim S1024x8192x1 (![0, 1] : Fin 2 → Fin S1024x8192x1.rank)
  slices_S1024x8192_S1024x8191_0_1 : S1024x8192.Slices ![0, 1] S1024x8191
  pads_S1024x8191_S1024x8192_000_010 : S1024x8191.Pads (![0, 0] : Fin 2 → Nat) ![0, 1] ![0, 0] S1024x8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  reducesTo_S1024x8192_S_d0_1 : S1024x8192.ReducesTo [0, 1] S_
  scatter_S128_S6x1_S6_n_0_0_1_wf : ScatterDims.WF S128 S6x1 S6 [] [0] [0] 1
  gather_S128_S1024x8192x1_S1024x8192_n_0_n_n_0_2_1_wf : GatherDims.WF S128 S1024x8192x1 S1024x8192 [] [0] [] [0] [] 2 ![1]

variable [Facts₀]

def scatter_S128_S6x1_S6_n_0_0_1 : ScatterDims S128 S6x1 S6 where
  updateWindowDims := []
  insertedWindowDims := [0]
  scatterDimsToOperandDims := [0]
  indexVectorDim := 1
  wf := scatter_S128_S6x1_S6_n_0_0_1_wf
def gather_S128_S1024x8192x1_S1024x8192_n_0_n_n_0_2_1 : GatherDims S128 S1024x8192x1 S1024x8192 where
  offsetDims := []
  collapsedSliceDims := [0]
  operandBatchingDims := []
  startIndicesBatchingDims := []
  startIndexMap := [0]
  indexVectorDim := 2
  sliceSizes := ![1]
  wf := gather_S128_S1024x8192x1_S1024x8192_n_0_n_n_0_2_1_wf

class Facts : Prop extends Facts₀ where

variable [Facts]
-- ==== Proof.Spec.lean ====
/-
  What both programs compute, as one function of the two argument arrays on the extended reals.

  Per token position (i, j) of an [n, 8192] array of durations x and tokens tk (n = 1024 for the whole arrays, n = 128
  for one tile of the kernel: every formula stays inside its row, so a tile's values are the array's on its rows):
    expected(t)  the duration the first rule expects of token t: 2, 3 or 5 for six tokens, 0 for every other;
    gap1         x - expected where the token has an expected duration and x exceeds it, else 0;
    next         the duration one place to the right in the same row, 0 in the last column;
    gap2         x - next / 3 where the token is one of the six ratio tokens, a next place exists and 3 x > next, else 0;
    g            gap1 + gap2;
    rules        x - g + (g one place to the right, 0 in the last column);
  the kernel squares log ((x + 1) / (rules + 1)), the reference squares log (x + 1) - log (rules + 1); the result is
  0.6 times the sum of the squares over all positions divided by 2^23 (the two outer constants are kept as the
  words both programs spell: they are never evaluated).
-/
import Idealize.ShloMosaic.PureOps.Ideal
import Idealize.ShloMosaic.Lib.ValueIdx

noncomputable section

namespace Cert.Rules

open Idealize.ShloMosaic Idealize.ShloMosaic.ValueIdx

/-- `n` rows of 8192 token positions. -/
abbrev SR (n : Nat) : Shape := ⟨2, ![n, 8192]⟩

/-- The duration the first rule expects of a token: the six table entries, 0 off the table. -/
def expected (t : BitVec 32) : EReal :=
  if t = 27#32 then 5 else if t = 43#32 then 5 else if t = 92#32 then 2 else if t = 100#32 then 2
  else if t = 122#32 then 3 else if t = 94#32 then 2 else 0

/-- The six tokens the second rule applies to. -/
def ratioKey (t : BitVec 32) : Prop :=
  t = 44#32 ∨ t = 28#32 ∨ t = 29#32 ∨ t = 27#32 ∨ t = 121#32 ∨ t = 43#32

instance : DecidablePred ratioKey := fun t => by unfold ratioKey; infer_instance

variable {n : Nat}

/-- The entry one place to the right in the same row, 0 in the last column. -/
def shiftLeft (f : (SR n).Idx → EReal) (i : Fin n) (j : Fin 8192) : EReal :=
  if h : j.val < 8191 then f (ix2 i ⟨j.val + 1, by omega⟩) else 0

section
variable (x : (SR n).Idx → EReal) (tk : (SR n).Idx → BitVec 32)

def gap1 (i : Fin n) (j : Fin 8192) : EReal :=
  if 0 < expected (tk (ix2 i j)) ∧ expected (tk (ix2 i j)) < x (ix2 i j) then x (ix2 i j) - expected (tk (ix2 i j)) else 0

def gap2 (i : Fin n) (j : Fin 8192) : EReal :=
  if ratioKey (tk (ix2 i j)) ∧ j.val < 8191 ∧ shiftLeft x i j < 3 * x (ix2 i j) then
    x (ix2 i j) - Ideal.div (shiftLeft x i j) 3 else 0

/-- The two gaps of a position, added. -/
def gaps (q : (SR n).Idx) : EReal := gap1 x tk (q 0) (q 1) + gap2 x tk (q 0) (q 1)

/-- The duration after the rules: its own gaps taken off, the right neighbour's gaps put on. -/
def rules (i : Fin n) (j : Fin 8192) : EReal :=
  x (ix2 i j) - gaps x tk (ix2 i j) + shiftLeft (gaps x tk) i j

/-- The kernel's term of a position: the square of ONE logarithm, of the quotient. -/
def sqK (q : (SR n).Idx) : EReal :=
  Ideal.log (Ideal.div (x q + 1) (rules x tk (q 0) (q 1) + 1)) * Ideal.log (Ideal.div (x q + 1) (rules x tk (q 0) (q 1) + 1))

/-- The reference's term of a position: the square of the DIFFERENCE of two logarithms. -/
def sqR (q : (SR n).Idx) : EReal :=
  (Ideal.log (x q + 1) - Ideal.log (rules x tk (q 0) (q 1) + 1)) * (Ideal.log (x q + 1) - Ideal.log (rules x tk (q 0) (q 1) + 1))

end

/-- 0.6 times (the sum of the terms over all positions, divided by 2^23). -/
def total (d : (SR 1024).Idx → EReal) : EReal :=
  Ideal.ofBits .f32 0x3F19999A#32 * Ideal.div (∑ q : (SR 1024).Idx, d q) (Ideal.ofBits .f32 0x4B000000#32)

end Cert.Rules

end
-- ==== Proof.Consts.lean ====
/-
  The float literals the two programs spell, as the extended reals their words denote: 2, 3 and 5 (the table's
  expected durations; 3 is also the factor and the divisor of the second rule) and -1 (the bound the precondition
  puts under every duration, so that one plus a duration is positive). Zero and one are the library's.
-/
import Idealize.ShloMosaic.PureOps.Ideal

noncomputable section

namespace Cert.Rules.Consts

open Idealize.ShloMosaic

theorem ofBits_two : Ideal.ofBits .f32 0x40000000#32 = 2 := by
  simp [Ideal.ofBits, Ideal.ieee, -EReal.coe_mul]; norm_num; rfl

theorem ofBits_three : Ideal.ofBits .f32 0x40400000#32 = 3 := by
  simp [Ideal.ofBits, Ideal.ieee, -EReal.coe_mul]; norm_num; rfl

theorem ofBits_five : Ideal.ofBits .f32 0x40A00000#32 = 5 := by
  simp [Ideal.ofBits, Ideal.ieee, -EReal.coe_mul]; norm_num; rfl

theorem ofBits_neg_one : Ideal.ofBits .f32 0xBF800000#32 = -1 := by
  simp [Ideal.ofBits, Ideal.ieee, -EReal.coe_mul]; norm_num

end Cert.Rules.Consts

end
-- ==== Proof.KerBlock.lean ====
/-
  What the kernel's body leaves in its [8, 128] output block, on the extended reals: the sum over the [128, 8192] tile of
  the squared logarithm of the quotient in cell (0, 0), zero in every other cell.

  The body is read in three steps. (1) Position by position: each one-bit mask the body builds is the proposition the
  specification puts under its `if` (a token equals a table entry; a duration exceeds another; the column is not the
  last), each select on a mask is that `if`, and the rotation by 8191 of 8192 places masked off the last column is
  "the entry one place to the right, 0 in the last column"; so the body's [128, 8192] vector of squares is the
  specification's term at every position. (2) The reduction over the two tile axes of the [1, 128, 8192] vector has
  one result index, so it is the sum over every position, and the positions of [1, 128, 8192] are those of
  [128, 8192]. (3) The stored block is that sum where the row and the column are both 0, and the zero word elsewhere.
-/
import proofs.«427785_j46961172414632_3_alg».proof.Proof.Gen.KernelIdeal.Frame
import proofs.«427785_j46961172414632_3_alg».proof.Proof.Spec
import proofs.«427785_j46961172414632_3_alg».proof.Proof.Consts
import Idealize.ShloMosaic.Lib.IdealHost
import Idealize.ShloMosaic.Lib.KernelVsHost
import Idealize.ShloMosaic.Lib.ValueLayout
import Idealize.ShloMosaic.Lib.Affine
import Idealize.ShloMosaic.Lib.StableHlo.Predicate
import Idealize.ShloMosaic.PureOps.Ideal.Laws

noncomputable section

namespace Cert.KernelIdeal.Hand

open Idealize.ShloMosaic Idealize.ShloMosaic.ValueIdx Cert.KernelIdeal Cert.KernelIdeal.Gen

/-! ## Masks as propositions

A select on a one-bit mask is the `if` on "the mask is 1", and the ordered comparison "greater than" on the extended
reals gives the mask 1 exactly when the strict inequality holds. -/

theorem sel_eq {α : Type} (m : BitVec 1) (a b : α) : Scalar.select m a b = if m = 1#1 then a else b := rfl

theorem gt_iff (a b : EReal) : Ideal.cmp .ogt a b = 1#1 ↔ b < a := by
  unfold Ideal.cmp
  by_cases h : b < a <;> simp [h]

/-! ## The first rule

The expected duration of a token is a chain of six selects over the zero word, the LAST select outermost (token 27);
the specification's table is the same chain of `if`s in the same order. The gap is the duration less the expected
one where the expected one is positive and below the duration. -/

/-- The duration a token is expected to have, as the kernel's chain of selects spells it. -/
def kExp (t : BitVec 32) : EReal :=
  Scalar.select (IntOp.cmpi .eq t 27#32) (Ideal.ofBits .f32 0x40A00000#32)
  (Scalar.select (IntOp.cmpi .eq t 43#32) (Ideal.ofBits .f32 0x40A00000#32)
  (Scalar.select (IntOp.cmpi .eq t 92#32) (Ideal.ofBits .f32 0x40000000#32)
  (Scalar.select (IntOp.cmpi .eq t 100#32) (Ideal.ofBits .f32 0x40000000#32)
  (Scalar.select (IntOp.cmpi .eq t 122#32) (Ideal.ofBits .f32 0x40400000#32)
  (Scalar.select (IntOp.cmpi .eq t 94#32) (Ideal.ofBits .f32 0x40000000#32)
    (Ideal.ofBits .f32 0x00000000#32))))))

/-- The first rule's gap of a position, from its duration and its token, as the kernel computes it. -/
def kGap1 (x : EReal) (t : BitVec 32) : EReal :=
  Scalar.select (IntOp.andi (Ideal.cmp .ogt (kExp t) (Ideal.ofBits .f32 0x00000000#32)) (Ideal.cmp .ogt x (kExp t)))
    (x - kExp t) (Ideal.ofBits .f32 0x00000000#32)

theorem kExp_eq (t : BitVec 32) : kExp t = Cert.Rules.expected t := by
  unfold kExp Cert.Rules.expected
  simp only [sel_eq, IntOp.cmpi_eq, Cert.Rules.Consts.ofBits_two, Cert.Rules.Consts.ofBits_three,
    Cert.Rules.Consts.ofBits_five, Ideal.ofBits_zero_f32]

theorem kGap1_eq (x : EReal) (t : BitVec 32) :
    kGap1 x t = if 0 < Cert.Rules.expected t ∧ Cert.Rules.expected t < x then x - Cert.Rules.expected t else 0 := by
  unfold kGap1
  rw [kExp_eq]
  simp only [sel_eq, IntOp.andi_eq_one, gt_iff, Ideal.ofBits_zero_f32]

/-! ## The ratio tokens, the column mask and the right neighbour

The six comparisons of the token are or-ed onto the zero bit, left to right; the column mask compares the column's
number (below 8192, so the signed comparison of the 32-bit words is the comparison of the numbers) with 8191; a
rotation by 8191 of the 8192 columns reads, at column j, column (j + 8192 - 8191) mod 8192 = j + 1 when j < 8191. -/

/-- The ratio-token mask as the kernel's chain of ors spells it. -/
def kKey (t : BitVec 32) : BitVec 1 :=
  IntOp.ori (IntOp.ori (IntOp.ori (IntOp.ori (IntOp.ori (IntOp.ori 0#1 (IntOp.cmpi .eq t 44#32)) (IntOp.cmpi .eq t 28#32))
    (IntOp.cmpi .eq t 29#32)) (IntOp.cmpi .eq t 27#32)) (IntOp.cmpi .eq t 121#32)) (IntOp.cmpi .eq t 43#32)

theorem kKey_iff (t : BitVec 32) : kKey t = 1#1 ↔ Cert.Rules.ratioKey t := by
  unfold kKey Cert.Rules.ratioKey
  simp only [IntOp.ori_eq_one, IntOp.cmpi_eq]
  have h0 : ¬ ((0#1 : BitVec 1) = 1#1) := by decide
  tauto

theorem pay3_apply (x1 : Vec Ideal S128x8192 .i32) (p : S128x8192.Idx) :
    k0_pay3 (F := Ideal) x1 p = IntOp.ori 0#1 (IntOp.cmpi .eq (x1 p) 44#32) := by
  unfold k0_pay3
  rfl

/-- "A next place exists": the column is not the last one. -/
def colMask (hi : S128x8192.Iotas .tc 32 [1]) : IVec S128x8192 1 :=
  cmpi .slt (iota .tc S128x8192 32 [1] hi) (broadcast S128x8192 8191#32)

theorem colMask_iff (hi : S128x8192.Iotas .tc 32 [1]) (i : Fin 128) (j : Fin 8192) :
    colMask hi (ix2 i j) = 1#1 ↔ j.val < 8191 := by
  unfold colMask
  show IntOp.cmpi .slt (iota .tc S128x8192 32 [1] hi (ix2 i j)) 8191#32 = 1#1 ↔ _
  rw [iota_single_apply]
  show IntOp.cmpi .slt (BitVec.ofNat 32 j.val) 8191#32 = 1#1 ↔ _
  have hj := j.isLt
  have e : (BitVec.ofNat 32 j.val).toNat = j.val := by rw [BitVec.toNat_ofNat]; omega
  rw [StableHlo.Predicate.slt_iff_toNat (by rw [e]; omega) (by decide), e]
  rfl

/-- The entry one place to the right, 0 in the last column, as the kernel makes it: a rotation by 8191 of 8192 places
    brings the right neighbour to each column, and the last column is masked to zero. -/
def kShift (hi : S128x8192.Iotas .tc 32 [1]) (hr : S128x8192.Rotates 1 none) (f : FVec Ideal S128x8192 .f32) :
    FVec Ideal S128x8192 .f32 :=
  select (colMask hi) (dynamicRotate 1 8191#32 none f hr) (broadcast S128x8192 (Ideal.ofBits .f32 0x00000000#32))

theorem kShift_apply (hi : S128x8192.Iotas .tc 32 [1]) (hr : S128x8192.Rotates 1 none) (f : FVec Ideal S128x8192 .f32)
    (i : Fin 128) (j : Fin 8192) : kShift hi hr f (ix2 i j) = Cert.Rules.shiftLeft f i j := by
  unfold kShift Cert.Rules.shiftLeft
  rw [select_apply, sel_eq, broadcast_apply, Ideal.ofBits_zero_f32]
  by_cases h : j.val < 8191
  · rw [if_pos ((colMask_iff hi i j).2 h), dif_pos h]
    refine dynamicRotate_apply (1 : Fin 2) 8191#32 f hr (ix2 i j) (ix2 i ⟨j.val + 1, by omega⟩) (fun b => ?_)
    match b with
    | ⟨0, _⟩ => rfl
    | ⟨1, _⟩ =>
      show j.val + 1 = (j.val + 8192 - 8191 % 8192) % 8192
      omega
  · rw [if_neg (fun hm => h ((colMask_iff hi i j).1 hm)), dif_neg h]

/-! ## The second rule, the added gaps, and the square at a position -/

/-- The second rule's gap of a position, from its duration, its token, its column mask and its right neighbour, as the
    kernel computes it. -/
def kGap2 (x : EReal) (t : BitVec 32) (m : BitVec 1) (nx : EReal) : EReal :=
  Scalar.select
    (IntOp.andi (IntOp.andi (kKey t) m) (Ideal.cmp .ogt (Ideal.ofBits .f32 0x40400000#32 * x) nx))
    (x - Ideal.div nx (Ideal.ofBits .f32 0x40400000#32)) (Ideal.ofBits .f32 0x00000000#32)

theorem kGap2_eq (x : EReal) (t : BitVec 32) (m : BitVec 1) (nx : EReal) :
    kGap2 x t m nx = if (Cert.Rules.ratioKey t ∧ m = 1#1) ∧ nx < 3 * x then x - Ideal.div nx 3 else 0 := by
  unfold kGap2
  simp only [sel_eq, IntOp.andi_eq_one, kKey_iff, gt_iff, Cert.Rules.Consts.ofBits_three, Ideal.ofBits_zero_f32]

/-- The two gaps of every position of the tile, added, as the kernel computes them. -/
def kG (hi : S128x8192.Iotas .tc 32 [1]) (hr : S128x8192.Rotates 1 none) (x0 : FVec Ideal S128x8192 .f32)
    (x1 : IVec S128x8192 32) : FVec Ideal S128x8192 .f32 :=
  fun p => kGap1 (x0 p) (x1 p) + kGap2 (x0 p) (x1 p) (colMask hi p) (kShift hi hr x0 p)

theorem kG_eq (hi : S128x8192.Iotas .tc 32 [1]) (hr : S128x8192.Rotates 1 none) (x0 : FVec Ideal S128x8192 .f32)
    (x1 : IVec S128x8192 32) : kG hi hr x0 x1 = Cert.Rules.gaps (n := 128) x0 x1 := by
  funext p
  obtain ⟨i, j, rfl⟩ : ∃ (i : Fin 128) (j : Fin 8192), p = ix2 i j := ⟨p 0, p 1, eq_ix2 p⟩
  unfold kG Cert.Rules.gaps
  rw [kGap1_eq, kGap2_eq, kShift_apply]
  show _ = Cert.Rules.gap1 x0 x1 i j + Cert.Rules.gap2 x0 x1 i j
  unfold Cert.Rules.gap1 Cert.Rules.gap2
  simp only [colMask_iff, and_assoc]

/-- The squared logarithm of the quotient at every position of the tile, as the kernel computes it. -/
def kSq (hi : S128x8192.Iotas .tc 32 [1]) (hr : S128x8192.Rotates 1 none) (x0 : FVec Ideal S128x8192 .f32)
    (x1 : IVec S128x8192 32) : FVec Ideal S128x8192 .f32 :=
  fun p =>
    Ideal.log (Ideal.div (x0 p + Ideal.ofBits .f32 0x3F800000#32)
        (x0 p - kG hi hr x0 x1 p + kShift hi hr (kG hi hr x0 x1) p + Ideal.ofBits .f32 0x3F800000#32))
      * Ideal.log (Ideal.div (x0 p + Ideal.ofBits .f32 0x3F800000#32)
        (x0 p - kG hi hr x0 x1 p + kShift hi hr (kG hi hr x0 x1) p + Ideal.ofBits .f32 0x3F800000#32))

theorem kSq_apply (hi : S128x8192.Iotas .tc 32 [1]) (hr : S128x8192.Rotates 1 none) (x0 : FVec Ideal S128x8192 .f32)
    (x1 : IVec S128x8192 32) (i : Fin 128) (j : Fin 8192) :
    kSq hi hr x0 x1 (ix2 i j) = Cert.Rules.sqK (n := 128) x0 x1 (ix2 i j) := by
  unfold kSq Cert.Rules.sqK
  rw [kG_eq, kShift_apply, Ideal.ofBits_one_f32]
  rfl

theorem pay4_eq (hi : S128x8192.Iotas .tc 32 [1]) (hr : S128x8192.Rotates 1 none) (hs : S128x8192.ShapeCasts S1x128x8192)
    (x0 : Vec Ideal S128x8192 .f32) (x1 : Vec Ideal S128x8192 .i32) :
    k0_pay4 (F := Ideal) x0 x1 (k0_pay2 x0 x1) (k0_pay3 x1) = shapeCast S1x128x8192 (kSq hi hr x0 x1) hs := by
  unfold k0_pay4 k0_pay2 k0_pay3 kSq kG kShift colMask kGap2 kGap1 kKey kExp
  rfl

theorem pay4_apply (x0 : Vec Ideal S128x8192 .f32) (x1 : Vec Ideal S128x8192 .i32) (i : Fin 128) (j : Fin 8192) :
    k0_pay4 (F := Ideal) x0 x1 (k0_pay2 x0 x1) (k0_pay3 x1) (ix3 (0 : Fin 1) i j)
      = Cert.Rules.sqK (n := 128) x0 x1 (ix2 i j) := by
  rw [pay4_eq iota_S128x8192_d1_w32 rotates_S128x8192_d1 shapeCasts_S128x8192_S1x128x8192 x0 x1,
    shapeCast_ab_1ab_apply, kSq_apply]

/-! ## The sum over the tile and the output block -/

/-- The positions of a [1, a, b] array are those of the [a, b] array. -/
def tileEquiv {a b : Nat} : (⟨3, ![1, a, b]⟩ : Shape).Idx ≃ (⟨2, ![a, b]⟩ : Shape).Idx where
  toFun q := ix2 (q 1) (q 2)
  invFun p := ix3 (0 : Fin 1) (p 0) (p 1)
  left_inv q := by
    funext d
    match d with
    | ⟨0, _⟩ => exact Fin.ext (by have : (q 0).val < 1 := (q 0).isLt; show 0 = (q 0).val; omega)
    | ⟨1, _⟩ => rfl
    | ⟨2, _⟩ => rfl
  right_inv p := (eq_ix2 p).symm

/-- So a sum over the one is the sum over the other. -/
theorem sum_tile {a b : Nat} (f : (⟨3, ![1, a, b]⟩ : Shape).Idx → EReal) (g : (⟨2, ![a, b]⟩ : Shape).Idx → EReal)
    (h : ∀ (i : Fin a) (j : Fin b), f (ix3 (0 : Fin 1) i j) = g (ix2 i j)) : ∑ q, f q = ∑ p, g p :=
  (Fintype.sum_equiv tileEquiv.symm g f (fun p => by
    obtain ⟨i, j, rfl⟩ : ∃ (i : Fin a) (j : Fin b), p = ix2 i j := ⟨p 0, p 1, eq_ix2 p⟩
    exact (h i j).symm)).symm

/-- The mask of the output block's cell (0, 0). -/
def kCell (h0 : S8x128.Iotas .tc 32 [0]) (h1 : S8x128.Iotas .tc 32 [1]) : IVec S8x128 1 :=
  andi (cmpi .eq (iota .tc S8x128 32 [0] h0) (broadcast S8x128 0#32))
    (cmpi .eq (iota .tc S8x128 32 [1] h1) (broadcast S8x128 0#32))

theorem ofNat32_eq_zero (n : Nat) (hn : n < 2 ^ 32) : BitVec.ofNat 32 n = 0#32 ↔ n = 0 := by
  constructor
  · intro h
    have h' := congrArg BitVec.toNat h
    rw [BitVec.toNat_ofNat, Nat.mod_eq_of_lt hn] at h'
    exact h'
  · rintro rfl; rfl

theorem kCell_iff (h0 : S8x128.Iotas .tc 32 [0]) (h1 : S8x128.Iotas .tc 32 [1]) (r : Fin 8) (c : Fin 128) :
    kCell h0 h1 (ix2 r c) = 1#1 ↔ r.val = 0 ∧ c.val = 0 := by
  unfold kCell
  show IntOp.andi (IntOp.cmpi .eq (iota .tc S8x128 32 [0] h0 (ix2 r c)) 0#32)
    (IntOp.cmpi .eq (iota .tc S8x128 32 [1] h1 (ix2 r c)) 0#32) = 1#1 ↔ _
  rw [IntOp.andi_eq_one, IntOp.cmpi_eq, IntOp.cmpi_eq, iota_single_apply, iota_single_apply]
  show BitVec.ofNat 32 r.val = 0#32 ∧ BitVec.ofNat 32 c.val = 0#32 ↔ _
  rw [ofNat32_eq_zero _ (by have := r.isLt; omega), ofNat32_eq_zero _ (by have := c.isLt; omega)]

/-- The output block from the tile's sum: the sum, taken as the one entry of a [1] vector, in cell (0, 0) and zero in
    every other cell. -/
def kOut (h0 : S8x128.Iotas .tc 32 [0]) (h1 : S8x128.Iotas .tc 32 [1]) (hs : S1.ShapeCasts S1x1x1)
    (hp : ∀ a, (![0, 0, 0] : Fin 3 → Nat) a < S1x1x1.size a) (w : FVec Ideal S1 .f32) : FVec Ideal S8x128 .f32 :=
  select (kCell h0 h1) (broadcast S8x128 (extractAt ![0, 0, 0] (shapeCast S1x1x1 w hs) hp))
    (broadcast S8x128 (Ideal.ofBits .f32 0x00000000#32))

theorem kOut_apply (h0 : S8x128.Iotas .tc 32 [0]) (h1 : S8x128.Iotas .tc 32 [1]) (hs : S1.ShapeCasts S1x1x1)
    (hp : ∀ a, (![0, 0, 0] : Fin 3 → Nat) a < S1x1x1.size a) (w : FVec Ideal S1 .f32) (r : Fin 8) (c : Fin 128) :
    kOut h0 h1 hs hp w (ix2 r c)
      = if r.val = 0 ∧ c.val = 0 then w (Shape.reshapeEquiv hs (fun a => ⟨![0, 0, 0] a, hp a⟩)) else 0 := by
  unfold kOut
  rw [select_apply, sel_eq, broadcast_apply, broadcast_apply, Ideal.ofBits_zero_f32]
  simp only [kCell_iff]
  rfl

theorem pay1_eq (v : FVec Ideal S1x128x8192 .f32) :
    k0_pay1 (F := Ideal) v
      = kOut iota_S8x128_d0_w32 iota_S8x128_d1_w32 shapeCasts_S1_S1x1x1 inpos_S1x1x1_p0_0_0
          (multiReduction (F := Ideal) .add [1, 2] S1 v 0x00000000#32 reduces_S1x128x8192_S1 (.inl rfl) rfl) := by
  unfold k0_pay1 kOut kCell
  rfl

theorem pay1_apply (v : FVec Ideal S1x128x8192 .f32) (r : Fin 8) (c : Fin 128) :
    k0_pay1 (F := Ideal) v (ix2 r c) = if r.val = 0 ∧ c.val = 0 then ∑ q : S1x128x8192.Idx, v q else 0 := by
  rw [pay1_eq, kOut_apply,
    Ideal.multiReduction_add_total v 0x00000000#32 reduces_S1x128x8192_S1 (fun b => match b with | ⟨0, _⟩ => rfl)
      (.inl rfl) rfl]
theorem hz2 : (![0, 0] : Fin 2 → Nat) = fun _ => 0 := funext fun a => by fin_cases a <;> rfl

theorem out_block (x0 : Vec Ideal S128x8192 .f32) (x1 : Vec Ideal S128x8192 .i32) (r : Fin 8) (c : Fin 128) :
    Gen.out0_2 (F := Ideal) x0 x1 (ix2 r c)
      = if r.val = 0 ∧ c.val = 0 then ∑ p : (Cert.Rules.SR 128).Idx, Cert.Rules.sqK x0 x1 p else 0 := by
  unfold Gen.out0_2
  rw [View.canon_unit_zero hz2]
  simp only [View.ld_unit_zero (S := S128x8192) hz2]
  rw [pay1_apply]
  refine if_congr Iff.rfl ?_ rfl
  exact sum_tile _ _ (pay4_apply x0 x1)

end Cert.KernelIdeal.Hand

end
-- ==== Proof.SpecRows.lean ====
/-
  Every formula of the specification stays inside its row, so a tile of 128 whole rows computes the array's values on
  those rows: the kernel's term of the tile at (r, j) is the array's at (128 t + r, j), and the sum over the array is
  the sum over the eight tiles of the tile's sum.
-/
import proofs.«427785_j46961172414632_3_alg».proof.Proof.Spec
import Mathlib.Algebra.BigOperators.Fin
import Mathlib.Logic.Equiv.Fin.Basic

noncomputable section

namespace Cert.Rules

open Idealize.ShloMosaic Idealize.ShloMosaic.ValueIdx

/-- Row `r` of tile `t` is row 128 t + r of the array. -/
def rowOf (t : Fin 8) (r : Fin 128) : Fin 1024 := ⟨128 * t.val + r.val, by have := t.isLt; have := r.isLt; omega⟩

/-- Tile `t` of an array: rows 128 t … 128 t + 127. -/
def tile {α : Type} (f : (SR 1024).Idx → α) (t : Fin 8) : (SR 128).Idx → α :=
  fun p => f (ix2 ⟨128 * t.val + (p 0).val, by have := (p 0).isLt; have := t.isLt; simp only [Matrix.cons_val_zero] at *; omega⟩ ⟨(p 1).val, (p 1).isLt⟩)

theorem tile_ix2 {α : Type} (f : (SR 1024).Idx → α) (t : Fin 8) (i : Fin 128) (j : Fin 8192) :
    tile f t (ix2 i j) = f (ix2 (rowOf t i) j) := rfl

section
variable (x : (SR 1024).Idx → EReal) (tk : (SR 1024).Idx → BitVec 32) (t : Fin 8)

theorem shiftLeft_tile (f : (SR 1024).Idx → EReal) (i : Fin 128) (j : Fin 8192) :
    shiftLeft (tile f t) i j = shiftLeft f (rowOf t i) j := by
  unfold shiftLeft
  split
  · rfl
  · rfl

theorem gap1_tile (i : Fin 128) (j : Fin 8192) : gap1 (tile x t) (tile tk t) i j = gap1 x tk (rowOf t i) j := by
  rfl

theorem gap2_tile (i : Fin 128) (j : Fin 8192) : gap2 (tile x t) (tile tk t) i j = gap2 x tk (rowOf t i) j := by
  unfold gap2
  rw [shiftLeft_tile]
  rfl

theorem gaps_tile : gaps (tile x t) (tile tk t) = tile (gaps x tk) t := by
  funext p
  obtain ⟨i, j, rfl⟩ : ∃ (i : Fin 128) (j : Fin 8192), p = ix2 i j := ⟨p 0, p 1, eq_ix2 p⟩
  rw [tile_ix2]
  unfold gaps
  exact congrArg₂ (· + ·) (gap1_tile x tk t i j) (gap2_tile x tk t i j)

theorem rules_tile (i : Fin 128) (j : Fin 8192) : rules (tile x t) (tile tk t) i j = rules x tk (rowOf t i) j := by
  unfold rules
  rw [gaps_tile, tile_ix2, tile_ix2, shiftLeft_tile]

theorem sqK_tile (i : Fin 128) (j : Fin 8192) : sqK (tile x t) (tile tk t) (ix2 i j) = sqK x tk (ix2 (rowOf t i) j) := by
  unfold sqK
  rw [tile_ix2]
  exact congrArg (fun b => Ideal.log (Ideal.div (x (ix2 (rowOf t i) j) + 1) (b + 1)) * Ideal.log (Ideal.div (x (ix2 (rowOf t i) j) + 1) (b + 1)))
    (rules_tile x tk t i j)

end

/-- The rows of the array, tile by tile. -/
theorem sum_rows {M : Type} [AddCommMonoid M] (G : Fin 1024 → M) : ∑ t : Fin 8, ∑ r : Fin 128, G (rowOf t r) = ∑ i : Fin 1024, G i := by
  rw [← Fintype.sum_prod_type', ← Equiv.sum_comp (finProdFinEquiv (m := 8) (n := 128)) G]
  refine Finset.sum_congr rfl fun p _ => congrArg G (Fin.ext ?_)
  show 128 * p.1.val + p.2.val = p.2.val + 128 * p.1.val
  omega

theorem sum_tiles (x : (SR 1024).Idx → EReal) (tk : (SR 1024).Idx → BitVec 32) :
    ∑ t : Fin 8, ∑ p : (SR 128).Idx, sqK (tile x t) (tile tk t) p = ∑ q : (SR 1024).Idx, sqK x tk q := by
  rw [sum_idx2 (sqK x tk), ← sum_rows (fun i => ∑ j : Fin 8192, sqK x tk (ix2 i j))]
  refine Finset.sum_congr rfl fun t _ => ?_
  rw [sum_idx2 (sqK (tile x t) (tile tk t))]
  exact Finset.sum_congr rfl fun i _ => Finset.sum_congr rfl fun j _ => sqK_tile x tk t i j

end Cert.Rules

end
-- ==== Proof.KerArray.lean ====
/-
  The kernel program's run on the extended reals: the eight output blocks tile the [64, 128] array of partial sums, the
  host lines after the region add its entries, divide by 2^23 and multiply by 0.6; every entry but one per block is
  zero, so the result is the specification's total of the kernel's terms.

  In order: at grid point t every window is on block row t (so the two input blocks are tile t of the durations and
  of the tokens, and the output block is rows 8 t … 8 t + 7 of the array of partial sums); the array of partial sums as
  one function of the argument arrays; what point t writes back is its block of that function; the eight blocks cover
  the array; the sum of the array's entries is the sum of the eight tiles' sums, which is the sum over all positions.
-/
import proofs.«427785_j46961172414632_3_alg».proof.Proof.KerBlock
import proofs.«427785_j46961172414632_3_alg».proof.Proof.SpecRows
import Idealize.ShloMosaic.Lib.Pipeline.Value
import Idealize.ShloMosaic.Lib.IdealHost

noncomputable section

namespace Cert.KernelIdeal.Hand

open Idealize.ShloMosaic Idealize.ShloMosaic.TcCoe Idealize.ShloMosaic.ValueIdx Idealize.SL.Sem Cert.KernelIdeal Cert.KernelIdeal.Gen

namespace Partials

open Cert.Rules (SR tile sqK)

variable (m : (ℓ : Loc nD τ sig) → Buf (Elt Ideal) ℓ)

/-- At grid point t every window is on block row t, block column 0. -/
theorem blockIdx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A grid point as one of the eight tiles. -/
abbrev pt (t : Fin cfg0.N) : Fin 8 := Fin.cast N_0 t

/-- The durations' block at point t is tile t of the durations. -/
theorem iblk0_eq (c : Dev nD) (t : Fin cfg0.N) :
    (Gen.iblk m c 0 t : Vec Ideal S128x8192 .f32) = tile (m ((c.tc : Thread nD τ).loc main_arg0)) (pt t) := by
  obtain ⟨e0, e1, -⟩ := blockIdx t
  refine funext fun (p : S128x8192.Idx) => ?_
  unfold Gen.iblk
  rw [View.read_apply]
  show Gen.V m c main_arg0 _ = _
  rw [Gen.V_main_arg0]
  unfold Cert.Rules.tile
  congr 1
  funext a
  apply Fin.ext
  match a with
  | ⟨0, _⟩ => show win0_0.index t (0 : Fin 2) * 128 + 1 * (p 0).val = 128 * t.val + (p 0).val; rw [e0]; omega
  | ⟨1, _⟩ => show win0_0.index t (1 : Fin 2) * 8192 + 1 * (p 1).val = (p 1).val; rw [e1]; omega

/-- The tokens' block at point t is tile t of the tokens. -/
theorem iblk1_eq (c : Dev nD) (t : Fin cfg0.N) :
    (Gen.iblk m c 1 t : Vec Ideal S128x8192 .i32) = tile (m ((c.tc : Thread nD τ).loc main_arg1)) (pt t) := by
  obtain ⟨-, -, e0, e1, -⟩ := blockIdx t
  refine funext fun (p : S128x8192.Idx) => ?_
  unfold Gen.iblk
  rw [View.read_apply]
  show Gen.V m c main_arg1 _ = _
  rw [Gen.V_main_arg1]
  unfold Cert.Rules.tile
  congr 1
  funext a
  apply Fin.ext
  match a with
  | ⟨0, _⟩ => show win0_1.index t (0 : Fin 2) * 128 + 1 * (p 0).val = 128 * t.val + (p 0).val; rw [e0]; omega
  | ⟨1, _⟩ => show win0_1.index t (1 : Fin 2) * 8192 + 1 * (p 1).val = (p 1).val; rw [e1]; omega

/-- One entry of the [64, 128] array of partial sums: row ρ, lane κ holds the sum of tile ρ / 8 when ρ is a
    multiple of 8 and κ = 0, and zero everywhere else. -/
def partialAt (x : (SR 1024).Idx → EReal) (tk : (SR 1024).Idx → BitVec 32) (ρ : Fin 64) (κ : Fin 128) : EReal :=
  if ρ.val % 8 = 0 ∧ κ.val = 0 then
    ∑ p : (SR 128).Idx, sqK (tile x ⟨ρ.val / 8, by omega⟩) (tile tk ⟨ρ.val / 8, by omega⟩) p
  else 0

/-- The array of partial sums as one function of the two argument arrays. -/
def partials (x : (SR 1024).Idx → EReal) (tk : (SR 1024).Idx → BitVec 32) : S64x128.Idx → EReal :=
  fun i => partialAt x tk (i 0) (i 1)

/-- The body's output block of tile t at (r, κ') is the array of partial sums at row 8 t + r, lane κ'. -/
theorem out_eq_partialAt (x : (SR 1024).Idx → EReal) (tk : (SR 1024).Idx → BitVec 32) (t : Fin 8)
    (x0 : Vec Ideal S128x8192 .f32) (x1 : Vec Ideal S128x8192 .i32) (h0 : x0 = tile x t) (h1 : x1 = tile tk t)
    (r : Fin 8) (κ' : Fin 128) (ρ : Fin 64) (κ : Fin 128) (hρ : ρ.val = t.val * 8 + r.val) (hκ : κ.val = κ'.val) :
    Gen.out0_2 (F := Ideal) x0 x1 (ix2 r κ') = partialAt x tk ρ κ := by
  subst h0 h1
  rw [out_block]
  unfold partialAt
  have ht : (⟨ρ.val / 8, by omega⟩ : Fin 8) = t := Fin.ext (by show ρ.val / 8 = t.val; omega)
  rw [ht]
  have hr := r.isLt
  exact if_congr (by rw [hκ]; constructor <;> rintro ⟨a, b⟩ <;> exact ⟨by omega, b⟩) rfl rfl

/-- What point t writes back is its block of the array of partial sums. -/
theorem flushed_eq (c : Dev nD) (t : Fin cfg0.N) :
    (Gen.dats m 0 c).flushed 2 t = ((cfg0.win 2).blk t).view.read (Elt Ideal)
      (partials (m ((c.tc : Thread nD τ).loc main_arg0)) (m ((c.tc : Thread nD τ).loc main_arg1))) := by
  show (cfg0.win 2).cut (grid0.coords t) ((Gen.dats m 0 c).after 2 t) = _
  rw [Gen.after0_2]
  obtain ⟨-, -, -, -, e0, e1⟩ := blockIdx t
  refine funext fun (j : S8x128.Idx) => ?_
  obtain ⟨r, κ', rfl⟩ : ∃ (r : Fin 8) (κ' : Fin 128), j = ix2 r κ' := ⟨j 0, j 1, eq_ix2 j⟩
  rw [View.read_apply]
  refine out_eq_partialAt _ _ (pt t) _ _ (iblk0_eq m c t) (iblk1_eq m c t) r κ' _ _ ?_ ?_
  · show win0_2.index t (0 : Fin 2) * 8 + 1 * r.val = t.val * 8 + r.val; rw [e0]; omega
  · show win0_2.index t (1 : Fin 2) * 128 + 1 * κ'.val = κ'.val; rw [e1]; omega

/-- An index of the [64, 128] array lies in point t's block iff each coordinate is in the block's range. -/
theorem mem_blk (t : Fin cfg0.N) (i : S64x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v0).slice (win0_2.rect t)).set ↔ _
  rw [View.set_slice_whole, Rect.mem_set_unit]
  exact Iff.rfl

/-- The eight blocks tile the array (row ρ lies in the block of point ρ / 8), so after the region it holds the
    partial sums. -/
theorem final (c : Dev nD) : (Gen.dats m 0 c).arrAt 2 cfg0.N
    = partials (m ((c.tc : Thread nD τ).loc main_arg0)) (m ((c.tc : Thread nD τ).loc main_arg1)) :=
  (Gen.dats m 0 c).arrAt_eq_of_cover 2 _ (fun t _ => flushed_eq m c t) fun (i : S64x128.Idx) => by
    have h0 : (i 0).val < 64 := (i 0).isLt
    have h1 : (i 1).val < 128 := (i 1).isLt
    have hN : cfg0.N = 8 := N_0
    have hlt : (i 0).val / 8 < cfg0.N := by rw [hN]; omega
    obtain ⟨-, -, -, -, e0, e1⟩ := blockIdx ⟨(i 0).val / 8, hlt⟩
    refine ⟨⟨(i 0).val / 8, hlt⟩, Gen.flush0_2 _, ?_⟩
    rw [mem_blk]
    intro a
    match a with
    | ⟨0, _⟩ =>
      show win0_2.index ⟨(i 0).val / 8, hlt⟩ (0 : Fin 2) * 8 ≤ (i 0).val ∧ (i 0).val < win0_2.index ⟨(i 0).val / 8, hlt⟩ (0 : Fin 2) * 8 + 8
      rw [e0]; show (i 0).val / 8 * 8 ≤ (i 0).val ∧ (i 0).val < (i 0).val / 8 * 8 + 8; omega
    | ⟨1, _⟩ =>
      show win0_2.index ⟨(i 0).val / 8, hlt⟩ (1 : Fin 2) * 128 ≤ (i 1).val ∧ (i 1).val < win0_2.index ⟨(i 0).val / 8, hlt⟩ (1 : Fin 2) * 128 + 128
      rw [e1]; omega

/-- Every entry of the array of partial sums but (8 t, 0), t = 0 … 7, is zero, so its entries add up to the sum of the
    eight tiles' sums. -/
theorem sum_partials (x : (SR 1024).Idx → EReal) (tk : (SR 1024).Idx → BitVec 32) :
    ∑ i : S64x128.Idx, partials x tk i = ∑ t : Fin 8, ∑ p : (SR 128).Idx, sqK (tile x t) (tile tk t) p := by
  unfold partials partialAt
  rw [← Finset.sum_filter]
  refine Finset.sum_nbij' (fun i => (⟨(i 0).val / 8, by have h0 : (i 0).val < 64 := (i 0).isLt; omega⟩ : Fin 8))
    (fun t => (ix2 (⟨8 * t.val, by omega⟩ : Fin 64) (⟨0, by omega⟩ : Fin 128) : S64x128.Idx)) ?_ ?_ ?_ ?_ ?_
  · intro i _; exact Finset.mem_univ _
  · intro t _
    exact Finset.mem_filter.mpr ⟨Finset.mem_univ _, show 8 * t.val % 8 = 0 ∧ (0 : Nat) = 0 from ⟨by omega, rfl⟩⟩
  · intro i hi
    obtain ⟨h0, h1⟩ := (Finset.mem_filter.mp hi).2
    exact Shape.idx_ext₂ (show 8 * ((i 0).val / 8) = (i 0).val by omega) (show (0 : Nat) = (i 1).val from h1.symm)
  · intro t _
    exact Fin.ext (show 8 * t.val / 8 = t.val by omega)
  · intro i _; rfl

/-- The program's result: the host lines after the region add the array of partial sums, divide by 2^23 and multiply
    by 0.6. -/
theorem tail_v3 (c : Dev nD) :
    Pipeline.afterTail₀ cfgs (Gen.dats m) 0 (Gen.V0 m) [hostOps1] c main_v3
      = fun _ => Cert.Rules.total (sqK (m ((c.tc : Thread nD τ).loc main_arg0)) (m ((c.tc : Thread nD τ).loc main_arg1))) := by
  unfold Pipeline.afterTail₀
  show StableHlo.after hostOps1 _ (Proc.devRef .tc main_v3) = _
  after_results
  have hv0 : Pipeline.withArrays (cfgs 0).spec c (V0 m c) (fun w => (dats m 0 c).arrAt w (cfgs 0).N) (Proc.devRef .tc main_v0)
      = partials (m ((c.tc : Thread nD τ).loc main_arg0)) (m ((c.tc : Thread nD τ).loc main_arg1)) :=
    (Pipeline.withArrays_arr spec0 launch0.win.arr_inj c _ _ 2).trans (final m c)
  rw [hv0]
  funext j
  rw [mulf_apply, hostDivf_apply, hostReduceAdd_apply, Ideal.hostReduceAdd_total _ (fun b => b.elim0)]
  simp only [constant_apply]
  rw [Ideal.ofBits_zero_f32, zero_add, sum_partials, Cert.Rules.sum_tiles]
  rfl

end Partials

/-- The kernel program's run: the result buffer ends at the specification's total of the kernel's terms (the frame
    run's post read at the result buffer, through the host lines after the region), the two argument arrays as they
    were (each the array an input window stages, unchanged by the region and written by no later line). -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = (fun _ => Cert.Rules.total (Cert.Rules.sqK (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c =>
    ⟨((h c).2 main_v3 (Pipeline.mem_restRefs_of main_v3 (by decide) (by decide))).trans (Partials.tail_v3 m c),
      ((h c).1 0).trans (((Gen.dats m 0 c).arrAt_in 0 rfl _).trans ((Gen.A_eq m c 0).trans (Gen.V_main_arg0 m c))),
      ((h c).1 1).trans (((Gen.dats m 0 c).arrAt_in 1 rfl _).trans ((Gen.A_eq m c 1).trans (Gen.V_main_arg1 m c)))⟩)
    (Gen.run_main m ρ)

end Cert.KernelIdeal.Hand

end
-- ==== Proof.RefOps.lean ====
/- @main's operations in order, each outlined function's lines written at its call over the call's buffer record. -/
import proofs.«427785_j46961172414632_3_alg».proof.ReferenceIdeal
import Idealize.ShloMosaic.Lib.StableHlo.Run

noncomputable section

namespace Cert.ReferenceIdeal.Hand

open Idealize.ShloMosaic Idealize.ShloMosaic.StableHlo Idealize.SL.Sem Cert.ReferenceIdeal Cert.ReferenceIdeal.Facts₀

variable {F : FTy → Type} [FloatOps F] [Cert.ReferenceIdeal.Facts]

/-- @main as one straight line of 115 host operations. -/
abbrev ops : List (HloOp τ sig (Elt F)) :=
  [
    nullary main_cst (fun i => FloatOps.ofBits .f32 (lit0 (S6.rowMajor i))),
    nullary main_c (fun i => lit1 (S6.rowMajor i)),
    nullary main_c_0 (constantI S6 1 0#1),
    nullary main_c_1 (constantI S6 1 0#1),
    nullary main_c_2 (fun i => lit2 (S6.rowMajor i)),
    nullary main_c_3 (constantI S6 1 0#1),
    nullary main_cst_4 (constant S_ .f32 0x00000000#32),
    unary main_cst_4 main_v0 (broadcastInDim S128 ![] bcast_S_S128 : (⟨S_, .f32⟩ : BufTy).Contents (Elt F) → (⟨S128, .f32⟩ : BufTy).Contents (Elt F)),
    nullary main_c_5 (constantI S_ 32 128#32),
    unary main_c_5 main_v1 (broadcastInDim S6 ![] bcast_S_S6 : (⟨S_, .i32⟩ : BufTy).Contents (Elt F) → (⟨S6, .i32⟩ : BufTy).Contents (Elt F)),
    binary main_c main_v1 main_v2 (addi : (⟨S6, .i32⟩ : BufTy).Contents (Elt F) → (⟨S6, .i32⟩ : BufTy).Contents (Elt F) → (⟨S6, .i32⟩ : BufTy).Contents (Elt F)),
    ternary main_c_0 main_v2 main_c main_v3 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v3 main_v4 (broadcastInDim S6x1 ![0] bcast_S6_S6x1_0 : (⟨S6, .i32⟩ : BufTy).Contents (Elt F) → (⟨S6x1, .i32⟩ : BufTy).Contents (Elt F)),
    ternary main_v0 main_v4 main_cst main_v5 ((fun x i u => Host.scatter scatter_S128_S6x1_S6_n_0_0_1 (fun _ b => b) x i u) : (⟨S128, .f32⟩ : BufTy).Contents (Elt F) → (⟨S6x1, .i32⟩ : BufTy).Contents (Elt F) → (⟨S6, .f32⟩ : BufTy).Contents (Elt F) → (⟨S128, .f32⟩ : BufTy).Contents (Elt F)),
    nullary main_c_6 (constantI S_ 1 0#1),
    unary main_c_6 main_v6 (broadcastInDim S128 ![] bcast_S_S128 : (⟨S_, .i1⟩ : BufTy).Contents (Elt F) → (⟨S128, .i1⟩ : BufTy).Contents (Elt F)),
    nullary main_c_7 (constantI S_ 32 128#32),
    unary main_c_7 main_v7 (broadcastInDim S6 ![] bcast_S_S6 : (⟨S_, .i32⟩ : BufTy).Contents (Elt F) → (⟨S6, .i32⟩ : BufTy).Contents (Elt F)),
    binary main_c main_v7 main_v8 (addi : (⟨S6, .i32⟩ : BufTy).Contents (Elt F) → (⟨S6, .i32⟩ : BufTy).Contents (Elt F) → (⟨S6, .i32⟩ : BufTy).Contents (Elt F)),
    ternary main_c_1 main_v8 main_c main_v9 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v9 main_v10 (broadcastInDim S6x1 ![0] bcast_S6_S6x1_0 : (⟨S6, .i32⟩ : BufTy).Contents (Elt F) → (⟨S6x1, .i32⟩ : BufTy).Contents (Elt F)),
    nullary main_c_8 (constantI S_ 1 1#1),
    unary main_c_8 main_v11 (broadcastInDim S6 ![] bcast_S_S6 : (⟨S_, .i1⟩ : BufTy).Contents (Elt F) → (⟨S6, .i1⟩ : BufTy).Contents (Elt F)),
    ternary main_v6 main_v10 main_v11 main_v12 ((fun x i u => Host.scatter scatter_S128_S6x1_S6_n_0_0_1 (fun _ b => b) x i u) : (⟨S128, .i1⟩ : BufTy).Contents (Elt F) → (⟨S6x1, .i32⟩ : BufTy).Contents (Elt F) → (⟨S6, .i1⟩ : BufTy).Contents (Elt F) → (⟨S128, .i1⟩ : BufTy).Contents (Elt F)),
    nullary main_c_9 (constantI S_ 1 0#1),
    unary main_c_9 main_v13 (broadcastInDim S128 ![] bcast_S_S128 : (⟨S_, .i1⟩ : BufTy).Contents (Elt F) → (⟨S128, .i1⟩ : BufTy).Contents (Elt F)),
    nullary main_c_10 (constantI S_ 32 128#32),
    unary main_c_10 main_v14 (broadcastInDim S6 ![] bcast_S_S6 : (⟨S_, .i32⟩ : BufTy).Contents (Elt F) → (⟨S6, .i32⟩ : BufTy).Contents (Elt F)),
    binary main_c_2 main_v14 main_v15 (addi : (⟨S6, .i32⟩ : BufTy).Contents (Elt F) → (⟨S6, .i32⟩ : BufTy).Contents (Elt F) → (⟨S6, .i32⟩ : BufTy).Contents (Elt F)),
    ternary main_c_3 main_v15 main_c_2 main_v16 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v16 main_v17 (broadcastInDim S6x1 ![0] bcast_S6_S6x1_0 : (⟨S6, .i32⟩ : BufTy).Contents (Elt F) → (⟨S6x1, .i32⟩ : BufTy).Contents (Elt F)),
    nullary main_c_11 (constantI S_ 1 1#1),
    unary main_c_11 main_v18 (broadcastInDim S6 ![] bcast_S_S6 : (⟨S_, .i1⟩ : BufTy).Contents (Elt F) → (⟨S6, .i1⟩ : BufTy).Contents (Elt F)),
    ternary main_v13 main_v17 main_v18 main_v19 ((fun x i u => Host.scatter scatter_S128_S6x1_S6_n_0_0_1 (fun _ b => b) x i u) : (⟨S128, .i1⟩ : BufTy).Contents (Elt F) → (⟨S6x1, .i32⟩ : BufTy).Contents (Elt F) → (⟨S6, .i1⟩ : BufTy).Contents (Elt F) → (⟨S128, .i1⟩ : BufTy).Contents (Elt F)),
    nullary main_c_12 (constantI S_ 32 0#32),
    unary main_c_12 main_v20 (broadcastInDim S1024x8192 ![] bcast_S_S1024x8192 : (⟨S_, .i32⟩ : BufTy).Contents (Elt F) → (⟨S1024x8192, .i32⟩ : BufTy).Contents (Elt F)),
    binary main_arg1 main_v20 main_v21 (cmpi .slt : (⟨S1024x8192, .i32⟩ : BufTy).Contents (Elt F) → (⟨S1024x8192, .i32⟩ : BufTy).Contents (Elt F) → (⟨S1024x8192, .i1⟩ : BufTy).Contents (Elt F)),
    nullary main_c_13 (constantI S_ 32 128#32),
    unary main_c_13 main_v22 (broadcastInDim S1024x8192 ![] bcast_S_S1024x8192 : (⟨S_, .i32⟩ : BufTy).Contents (Elt F) → (⟨S1024x8192, .i32⟩ : BufTy).Contents (Elt F)),
    binary main_arg1 main_v22 main_v23 (addi : (⟨S1024x8192, .i32⟩ : BufTy).Contents (Elt F) → (⟨S1024x8192, .i32⟩ : BufTy).Contents (Elt F) → (⟨S1024x8192, .i32⟩ : BufTy).Contents (Elt F)),
    ternary main_v21 main_v23 main_arg1 main_v24 (select : (⟨S1024x8192, .i1⟩ : BufTy).Contents (Elt F) → (⟨S1024x8192, .i32⟩ : BufTy).Contents (Elt F) → (⟨S1024x8192, .i32⟩ : BufTy).Contents (Elt F) → (⟨S1024x8192, .i32⟩ : BufTy).Contents (Elt F)),
    unary main_v24 main_v25 (broadcastInDim S1024x8192x1 ![0, 1] bcast_S1024x8192_S1024x8192x1_0_1 : (⟨S1024x8192, .i32⟩ : BufTy).Contents (Elt F) → (⟨S1024x8192x1, .i32⟩ : BufTy).Contents (Elt F)),
    binary main_v12 main_v25 main_v26 ((fun x i => Host.gather gather_S128_S1024x8192x1_S1024x8192_n_0_n_n_0_2_1 x i) : (⟨S128, .i1⟩ : BufTy).Contents (Elt F) → (⟨S1024x8192x1, .i32⟩ : BufTy).Contents (Elt F) → (⟨S1024x8192, .i1⟩ : BufTy).Contents (Elt F)),
    nullary main_c_14 (constantI S_ 32 0#32),
    unary main_c_14 main_v27 (broadcastInDim S1024x8192 ![] bcast_S_S1024x8192 : (⟨S_, .i32⟩ : BufTy).Contents (Elt F) → (⟨S1024x8192, .i32⟩ : BufTy).Contents (Elt F)),
    binary main_arg1 main_v27 main_v28 (cmpi .slt : (⟨S1024x8192, .i32⟩ : BufTy).Contents (Elt F) → (⟨S1024x8192, .i32⟩ : BufTy).Contents (Elt F) → (⟨S1024x8192, .i1⟩ : BufTy).Contents (Elt F)),
    nullary main_c_15 (constantI S_ 32 128#32),
    unary main_c_15 main_v29 (broadcastInDim S1024x8192 ![] bcast_S_S1024x8192 : (⟨S_, .i32⟩ : BufTy).Contents (Elt F) → (⟨S1024x8192, .i32⟩ : BufTy).Contents (Elt F)),
    binary main_arg1 main_v29 main_v30 (addi : (⟨S1024x8192, .i32⟩ : BufTy).Contents (Elt F) → (⟨S1024x8192, .i32⟩ : BufTy).Contents (Elt F) → (⟨S1024x8192, .i32⟩ : BufTy).Contents (Elt F)),
    ternary main_v28 main_v30 main_arg1 main_v31 (select : (⟨S1024x8192, .i1⟩ : BufTy).Contents (Elt F) → (⟨S1024x8192, .i32⟩ : BufTy).Contents (Elt F) → (⟨S1024x8192, .i32⟩ : BufTy).Contents (Elt F) → (⟨S1024x8192, .i32⟩ : BufTy).Contents (Elt F)),
    unary main_v31 main_v32 (broadcastInDim S1024x8192x1 ![0, 1] bcast_S1024x8192_S1024x8192x1_0_1 : (⟨S1024x8192, .i32⟩ : BufTy).Contents (Elt F) → (⟨S1024x8192x1, .i32⟩ : BufTy).Contents (Elt F)),
    binary main_v5 main_v32 main_v33 ((fun x i => Host.gather gather_S128_S1024x8192x1_S1024x8192_n_0_n_n_0_2_1 x i) : (⟨S128, .f32⟩ : BufTy).Contents (Elt F) → (⟨S1024x8192x1, .i32⟩ : BufTy).Contents (Elt F) → (⟨S1024x8192, .f32⟩ : BufTy).Contents (Elt F)),
    binary main_arg0 main_v33 main_v34 (cmpf .ogt : (⟨S1024x8192, .f32⟩ : BufTy).Contents (Elt F) → (⟨S1024x8192, .f32⟩ : BufTy).Contents (Elt F) → (⟨S1024x8192, .i1⟩ : BufTy).Contents (Elt F)),
    binary main_v26 main_v34 main_v35 (andi : (⟨S1024x8192, .i1⟩ : BufTy).Contents (Elt F) → (⟨S1024x8192, .i1⟩ : BufTy).Contents (Elt F) → (⟨S1024x8192, .i1⟩ : BufTy).Contents (Elt F)),
    binary main_arg0 main_v33 main_v36 (subf : (⟨S1024x8192, .f32⟩ : BufTy).Contents (Elt F) → (⟨S1024x8192, .f32⟩ : BufTy).Contents (Elt F) → (⟨S1024x8192, .f32⟩ : BufTy).Contents (Elt F)),
    nullary main_cst_16 (constant S_ .f32 0x00000000#32),
    TRef.unary (.of main_cst_16 : TRef sig ⟨S_, .f32⟩) main_call0.v0 (id),
    TRef.unary main_call0.v0 main_call0.v1 (broadcastInDim S1024x8192 ![] bcast_S_S1024x8192),
    TRef.ternary (.of main_v35 : TRef sig ⟨S1024x8192, .i1⟩) (.of main_v36 : TRef sig ⟨S1024x8192, .f32⟩) main_call0.v1 main_call0.v2 (select),
    unary main_arg0 main_v38 ((extractStridedSlice S1024x8191 ![0, 1] · slices_S1024x8192_S1024x8191_0_1) : (⟨S1024x8192, .f32⟩ : BufTy).Contents (Elt F) → (⟨S1024x8191, .f32⟩ : BufTy).Contents (Elt F)),
    nullary main_c_17 (constantI S_ 32 0#32),
    TRef.unary (.of main_c_17 : TRef sig ⟨S_, .i32⟩) main_call1.v0 (sitofp .f32),
    TRef.binary (.of main_v38 : TRef sig ⟨S1024x8191, .f32⟩) main_call1.v0 main_call1.v1 (fun x v => pad S1024x8192 ![0, 0] ![0, 1] ![0, 0] x v pads_S1024x8191_S1024x8192_000_010 h_S_),
    nullary main_v40 (iotaInDim S8192 32 0),
    nullary main_c_18 (constantI S_ 32 8191#32),
    unary main_c_18 main_v41 (broadcastInDim S8192 ![] bcast_S_S8192 : (⟨S_, .i32⟩ : BufTy).Contents (Elt F) → (⟨S8192, .i32⟩ : BufTy).Contents (Elt F)),
    binary main_v40 main_v41 main_v42 (cmpi .slt : (⟨S8192, .i32⟩ : BufTy).Contents (Elt F) → (⟨S8192, .i32⟩ : BufTy).Contents (Elt F) → (⟨S8192, .i1⟩ : BufTy).Contents (Elt F)),
    unary main_v42 main_v43 (broadcastInDim S1x8192 ![1] bcast_S8192_S1x8192_1 : (⟨S8192, .i1⟩ : BufTy).Contents (Elt F) → (⟨S1x8192, .i1⟩ : BufTy).Contents (Elt F)),
    nullary main_c_19 (constantI S_ 32 0#32),
    unary main_c_19 main_v44 (broadcastInDim S1024x8192 ![] bcast_S_S1024x8192 : (⟨S_, .i32⟩ : BufTy).Contents (Elt F) → (⟨S1024x8192, .i32⟩ : BufTy).Contents (Elt F)),
    binary main_arg1 main_v44 main_v45 (cmpi .slt : (⟨S1024x8192, .i32⟩ : BufTy).Contents (Elt F) → (⟨S1024x8192, .i32⟩ : BufTy).Contents (Elt F) → (⟨S1024x8192, .i1⟩ : BufTy).Contents (Elt F)),
    nullary main_c_20 (constantI S_ 32 128#32),
    unary main_c_20 main_v46 (broadcastInDim S1024x8192 ![] bcast_S_S1024x8192 : (⟨S_, .i32⟩ : BufTy).Contents (Elt F) → (⟨S1024x8192, .i32⟩ : BufTy).Contents (Elt F)),
    binary main_arg1 main_v46 main_v47 (addi : (⟨S1024x8192, .i32⟩ : BufTy).Contents (Elt F) → (⟨S1024x8192, .i32⟩ : BufTy).Contents (Elt F) → (⟨S1024x8192, .i32⟩ : BufTy).Contents (Elt F)),
    ternary main_v45 main_v47 main_arg1 main_v48 (select : (⟨S1024x8192, .i1⟩ : BufTy).Contents (Elt F) → (⟨S1024x8192, .i32⟩ : BufTy).Contents (Elt F) → (⟨S1024x8192, .i32⟩ : BufTy).Contents (Elt F) → (⟨S1024x8192, .i32⟩ : BufTy).Contents (Elt F)),
    unary main_v48 main_v49 (broadcastInDim S1024x8192x1 ![0, 1] bcast_S1024x8192_S1024x8192x1_0_1 : (⟨S1024x8192, .i32⟩ : BufTy).Contents (Elt F) → (⟨S1024x8192x1, .i32⟩ : BufTy).Contents (Elt F)),
    binary main_v19 main_v49 main_v50 ((fun x i => Host.gather gather_S128_S1024x8192x1_S1024x8192_n_0_n_n_0_2_1 x i) : (⟨S128, .i1⟩ : BufTy).Contents (Elt F) → (⟨S1024x8192x1, .i32⟩ : BufTy).Contents (Elt F) → (⟨S1024x8192, .i1⟩ : BufTy).Contents (Elt F)),
    unary main_v43 main_v51 (broadcastInDim S1024x8192 ![0, 1] bcast_S1x8192_S1024x8192_0_1 : (⟨S1x8192, .i1⟩ : BufTy).Contents (Elt F) → (⟨S1024x8192, .i1⟩ : BufTy).Contents (Elt F)),
    binary main_v50 main_v51 main_v52 (andi : (⟨S1024x8192, .i1⟩ : BufTy).Contents (Elt F) → (⟨S1024x8192, .i1⟩ : BufTy).Contents (Elt F) → (⟨S1024x8192, .i1⟩ : BufTy).Contents (Elt F)),
    nullary main_cst_21 (constant S_ .f32 0x40400000#32),
    unary main_cst_21 main_v53 (broadcastInDim S1024x8192 ![] bcast_S_S1024x8192 : (⟨S_, .f32⟩ : BufTy).Contents (Elt F) → (⟨S1024x8192, .f32⟩ : BufTy).Contents (Elt F)),
    binary main_v53 main_arg0 main_v54 (mulf : (⟨S1024x8192, .f32⟩ : BufTy).Contents (Elt F) → (⟨S1024x8192, .f32⟩ : BufTy).Contents (Elt F) → (⟨S1024x8192, .f32⟩ : BufTy).Contents (Elt F)),
    binary main_v54 main_v39 main_v55 (cmpf .ogt : (⟨S1024x8192, .f32⟩ : BufTy).Contents (Elt F) → (⟨S1024x8192, .f32⟩ : BufTy).Contents (Elt F) → (⟨S1024x8192, .i1⟩ : BufTy).Contents (Elt F)),
    binary main_v52 main_v55 main_v56 (andi : (⟨S1024x8192, .i1⟩ : BufTy).Contents (Elt F) → (⟨S1024x8192, .i1⟩ : BufTy).Contents (Elt F) → (⟨S1024x8192, .i1⟩ : BufTy).Contents (Elt F)),
    nullary main_cst_22 (constant S_ .f32 0x40400000#32),
    unary main_cst_22 main_v57 (broadcastInDim S1024x8192 ![] bcast_S_S1024x8192 : (⟨S_, .f32⟩ : BufTy).Contents (Elt F) → (⟨S1024x8192, .f32⟩ : BufTy).Contents (Elt F)),
    binary main_v39 main_v57 main_v58 (Host.divf : (⟨S1024x8192, .f32⟩ : BufTy).Contents (Elt F) → (⟨S1024x8192, .f32⟩ : BufTy).Contents (Elt F) → (⟨S1024x8192, .f32⟩ : BufTy).Contents (Elt F)),
    binary main_arg0 main_v58 main_v59 (subf : (⟨S1024x8192, .f32⟩ : BufTy).Contents (Elt F) → (⟨S1024x8192, .f32⟩ : BufTy).Contents (Elt F) → (⟨S1024x8192, .f32⟩ : BufTy).Contents (Elt F)),
    nullary main_cst_23 (constant S_ .f32 0x00000000#32),
    TRef.unary (.of main_cst_23 : TRef sig ⟨S_, .f32⟩) main_call2.v0 (id),
    TRef.unary main_call2.v0 main_call2.v1 (broadcastInDim S1024x8192 ![] bcast_S_S1024x8192),
    TRef.ternary (.of main_v56 : TRef sig ⟨S1024x8192, .i1⟩) (.of main_v59 : TRef sig ⟨S1024x8192, .f32⟩) main_call2.v1 main_call2.v2 (select),
    binary main_v37 main_v60 main_v61 (addf : (⟨S1024x8192, .f32⟩ : BufTy).Contents (Elt F) → (⟨S1024x8192, .f32⟩ : BufTy).Contents (Elt F) → (⟨S1024x8192, .f32⟩ : BufTy).Contents (Elt F)),
    unary main_v61 main_v62 ((extractStridedSlice S1024x8191 ![0, 1] · slices_S1024x8192_S1024x8191_0_1) : (⟨S1024x8192, .f32⟩ : BufTy).Contents (Elt F) → (⟨S1024x8191, .f32⟩ : BufTy).Contents (Elt F)),
    nullary main_c_24 (constantI S_ 32 0#32),
    TRef.unary (.of main_c_24 : TRef sig ⟨S_, .i32⟩) main_call3.v0 (sitofp .f32),
    TRef.binary (.of main_v62 : TRef sig ⟨S1024x8191, .f32⟩) main_call3.v0 main_call3.v1 (fun x v => pad S1024x8192 ![0, 0] ![0, 1] ![0, 0] x v pads_S1024x8191_S1024x8192_000_010 h_S_),
    binary main_arg0 main_v61 main_v64 (subf : (⟨S1024x8192, .f32⟩ : BufTy).Contents (Elt F) → (⟨S1024x8192, .f32⟩ : BufTy).Contents (Elt F) → (⟨S1024x8192, .f32⟩ : BufTy).Contents (Elt F)),
    binary main_v64 main_v63 main_v65 (addf : (⟨S1024x8192, .f32⟩ : BufTy).Contents (Elt F) → (⟨S1024x8192, .f32⟩ : BufTy).Contents (Elt F) → (⟨S1024x8192, .f32⟩ : BufTy).Contents (Elt F)),
    nullary main_cst_25 (constant S_ .f32 0x3F800000#32),
    unary main_cst_25 main_v66 (broadcastInDim S1024x8192 ![] bcast_S_S1024x8192 : (⟨S_, .f32⟩ : BufTy).Contents (Elt F) → (⟨S1024x8192, .f32⟩ : BufTy).Contents (Elt F)),
    binary main_arg0 main_v66 main_v67 (addf : (⟨S1024x8192, .f32⟩ : BufTy).Contents (Elt F) → (⟨S1024x8192, .f32⟩ : BufTy).Contents (Elt F) → (⟨S1024x8192, .f32⟩ : BufTy).Contents (Elt F)),
    unary main_v67 main_v68 (Host.log : (⟨S1024x8192, .f32⟩ : BufTy).Contents (Elt F) → (⟨S1024x8192, .f32⟩ : BufTy).Contents (Elt F)),
    nullary main_cst_26 (constant S_ .f32 0x3F800000#32),
    unary main_cst_26 main_v69 (broadcastInDim S1024x8192 ![] bcast_S_S1024x8192 : (⟨S_, .f32⟩ : BufTy).Contents (Elt F) → (⟨S1024x8192, .f32⟩ : BufTy).Contents (Elt F)),
    binary main_v65 main_v69 main_v70 (addf : (⟨S1024x8192, .f32⟩ : BufTy).Contents (Elt F) → (⟨S1024x8192, .f32⟩ : BufTy).Contents (Elt F) → (⟨S1024x8192, .f32⟩ : BufTy).Contents (Elt F)),
    unary main_v70 main_v71 (Host.log : (⟨S1024x8192, .f32⟩ : BufTy).Contents (Elt F) → (⟨S1024x8192, .f32⟩ : BufTy).Contents (Elt F)),
    binary main_v68 main_v71 main_v72 (subf : (⟨S1024x8192, .f32⟩ : BufTy).Contents (Elt F) → (⟨S1024x8192, .f32⟩ : BufTy).Contents (Elt F) → (⟨S1024x8192, .f32⟩ : BufTy).Contents (Elt F)),
    binary main_v72 main_v72 main_v73 (mulf : (⟨S1024x8192, .f32⟩ : BufTy).Contents (Elt F) → (⟨S1024x8192, .f32⟩ : BufTy).Contents (Elt F) → (⟨S1024x8192, .f32⟩ : BufTy).Contents (Elt F)),
    nullary main_cst_27 (constant S_ .f32 0x00000000#32),
    binary main_v73 main_cst_27 main_v74 ((fun x v => Host.reduceAdd x v reducesTo_S1024x8192_S_d0_1 h_S_) : (⟨S1024x8192, .f32⟩ : BufTy).Contents (Elt F) → (⟨S_, .f32⟩ : BufTy).Contents (Elt F) → (⟨S_, .f32⟩ : BufTy).Contents (Elt F)),
    nullary main_cst_28 (constant S_ .f32 0x4B000000#32),
    binary main_v74 main_cst_28 main_v75 (Host.divf : (⟨S_, .f32⟩ : BufTy).Contents (Elt F) → (⟨S_, .f32⟩ : BufTy).Contents (Elt F) → (⟨S_, .f32⟩ : BufTy).Contents (Elt F)),
    nullary main_cst_29 (constant S_ .f32 0x3F19999A#32),
    binary main_cst_29 main_v75 main_v76 (mulf : (⟨S_, .f32⟩ : BufTy).Contents (Elt F) → (⟨S_, .f32⟩ : BufTy).Contents (Elt F) → (⟨S_, .f32⟩ : BufTy).Contents (Elt F)) ]

end Cert.ReferenceIdeal.Hand

end
-- ==== Proof.RefTerm.lean ====
/- GENERATED by `bun scratch/transcribe.js term` (run in the unit directory; the script is filed with the unit) from proof/ReferenceIdeal.lean:
   the value @main's operations give its result buffer, as one pure chain over the two argument arrays. -/
import proofs.«427785_j46961172414632_3_alg».proof.ReferenceIdeal

noncomputable section

namespace Cert.ReferenceIdeal.Hand

open Idealize.ShloMosaic Cert.ReferenceIdeal Cert.ReferenceIdeal.Facts₀

variable {F : FTy → Type} [FloatOps F] [Cert.ReferenceIdeal.Facts]

/-- The result of @main from its two arguments: every operation applied to the values of the operations before it. -/
def refTerm (x : (⟨S1024x8192, .f32⟩ : BufTy).Contents (Elt F)) (tk : (⟨S1024x8192, .i32⟩ : BufTy).Contents (Elt F)) : (⟨S_, .f32⟩ : BufTy).Contents (Elt F) :=
  let t_cst : (⟨S6, .f32⟩ : BufTy).Contents (Elt F) := (fun i => FloatOps.ofBits .f32 (lit0 (S6.rowMajor i)))
  let t_c : (⟨S6, .i32⟩ : BufTy).Contents (Elt F) := (fun i => lit1 (S6.rowMajor i))
  let t_c_0 : (⟨S6, .i1⟩ : BufTy).Contents (Elt F) := (constantI S6 1 0#1)
  let t_c_1 : (⟨S6, .i1⟩ : BufTy).Contents (Elt F) := (constantI S6 1 0#1)
  let t_c_2 : (⟨S6, .i32⟩ : BufTy).Contents (Elt F) := (fun i => lit2 (S6.rowMajor i))
  let t_c_3 : (⟨S6, .i1⟩ : BufTy).Contents (Elt F) := (constantI S6 1 0#1)
  let t_cst_4 : (⟨S_, .f32⟩ : BufTy).Contents (Elt F) := (constant S_ .f32 0x00000000#32)
  let t_v0 : (⟨S128, .f32⟩ : BufTy).Contents (Elt F) := (broadcastInDim S128 ![] bcast_S_S128 : (⟨S_, .f32⟩ : BufTy).Contents (Elt F) → (⟨S128, .f32⟩ : BufTy).Contents (Elt F)) t_cst_4
  let t_c_5 : (⟨S_, .i32⟩ : BufTy).Contents (Elt F) := (constantI S_ 32 128#32)
  let t_v1 : (⟨S6, .i32⟩ : BufTy).Contents (Elt F) := (broadcastInDim S6 ![] bcast_S_S6 : (⟨S_, .i32⟩ : BufTy).Contents (Elt F) → (⟨S6, .i32⟩ : BufTy).Contents (Elt F)) t_c_5
  let t_v2 : (⟨S6, .i32⟩ : BufTy).Contents (Elt F) := (addi : (⟨S6, .i32⟩ : BufTy).Contents (Elt F) → (⟨S6, .i32⟩ : BufTy).Contents (Elt F) → (⟨S6, .i32⟩ : BufTy).Contents (Elt F)) t_c t_v1
  let t_v3 : (⟨S6, .i32⟩ : BufTy).Contents (Elt F) := (select : (⟨S6, .i1⟩ : BufTy).Contents (Elt F) → (⟨S6, .i32⟩ : BufTy).Contents (Elt F) → (⟨S6, .i32⟩ : BufTy).Contents (Elt F) → (⟨S6, .i32⟩ : BufTy).Contents (Elt F)) t_c_0 t_v2 t_c
  let t_v4 : (⟨S6x1, .i32⟩ : BufTy).Contents (Elt F) := (broadcastInDim S6x1 ![0] bcast_S6_S6x1_0 : (⟨S6, .i32⟩ : BufTy).Contents (Elt F) → (⟨S6x1, .i32⟩ : BufTy).Contents (Elt F)) t_v3
  let t_v5 : (⟨S128, .f32⟩ : BufTy).Contents (Elt F) := ((fun x i u => Host.scatter scatter_S128_S6x1_S6_n_0_0_1 (fun _ b => b) x i u) : (⟨S128, .f32⟩ : BufTy).Contents (Elt F) → (⟨S6x1, .i32⟩ : BufTy).Contents (Elt F) → (⟨S6, .f32⟩ : BufTy).Contents (Elt F) → (⟨S128, .f32⟩ : BufTy).Contents (Elt F)) t_v0 t_v4 t_cst
  let t_c_6 : (⟨S_, .i1⟩ : BufTy).Contents (Elt F) := (constantI S_ 1 0#1)
  let t_v6 : (⟨S128, .i1⟩ : BufTy).Contents (Elt F) := (broadcastInDim S128 ![] bcast_S_S128 : (⟨S_, .i1⟩ : BufTy).Contents (Elt F) → (⟨S128, .i1⟩ : BufTy).Contents (Elt F)) t_c_6
  let t_c_7 : (⟨S_, .i32⟩ : BufTy).Contents (Elt F) := (constantI S_ 32 128#32)
  let t_v7 : (⟨S6, .i32⟩ : BufTy).Contents (Elt F) := (broadcastInDim S6 ![] bcast_S_S6 : (⟨S_, .i32⟩ : BufTy).Contents (Elt F) → (⟨S6, .i32⟩ : BufTy).Contents (Elt F)) t_c_7
  let t_v8 : (⟨S6, .i32⟩ : BufTy).Contents (Elt F) := (addi : (⟨S6, .i32⟩ : BufTy).Contents (Elt F) → (⟨S6, .i32⟩ : BufTy).Contents (Elt F) → (⟨S6, .i32⟩ : BufTy).Contents (Elt F)) t_c t_v7
  let t_v9 : (⟨S6, .i32⟩ : BufTy).Contents (Elt F) := (select : (⟨S6, .i1⟩ : BufTy).Contents (Elt F) → (⟨S6, .i32⟩ : BufTy).Contents (Elt F) → (⟨S6, .i32⟩ : BufTy).Contents (Elt F) → (⟨S6, .i32⟩ : BufTy).Contents (Elt F)) t_c_1 t_v8 t_c
  let t_v10 : (⟨S6x1, .i32⟩ : BufTy).Contents (Elt F) := (broadcastInDim S6x1 ![0] bcast_S6_S6x1_0 : (⟨S6, .i32⟩ : BufTy).Contents (Elt F) → (⟨S6x1, .i32⟩ : BufTy).Contents (Elt F)) t_v9
  let t_c_8 : (⟨S_, .i1⟩ : BufTy).Contents (Elt F) := (constantI S_ 1 1#1)
  let t_v11 : (⟨S6, .i1⟩ : BufTy).Contents (Elt F) := (broadcastInDim S6 ![] bcast_S_S6 : (⟨S_, .i1⟩ : BufTy).Contents (Elt F) → (⟨S6, .i1⟩ : BufTy).Contents (Elt F)) t_c_8
  let t_v12 : (⟨S128, .i1⟩ : BufTy).Contents (Elt F) := ((fun x i u => Host.scatter scatter_S128_S6x1_S6_n_0_0_1 (fun _ b => b) x i u) : (⟨S128, .i1⟩ : BufTy).Contents (Elt F) → (⟨S6x1, .i32⟩ : BufTy).Contents (Elt F) → (⟨S6, .i1⟩ : BufTy).Contents (Elt F) → (⟨S128, .i1⟩ : BufTy).Contents (Elt F)) t_v6 t_v10 t_v11
  let t_c_9 : (⟨S_, .i1⟩ : BufTy).Contents (Elt F) := (constantI S_ 1 0#1)
  let t_v13 : (⟨S128, .i1⟩ : BufTy).Contents (Elt F) := (broadcastInDim S128 ![] bcast_S_S128 : (⟨S_, .i1⟩ : BufTy).Contents (Elt F) → (⟨S128, .i1⟩ : BufTy).Contents (Elt F)) t_c_9
  let t_c_10 : (⟨S_, .i32⟩ : BufTy).Contents (Elt F) := (constantI S_ 32 128#32)
  let t_v14 : (⟨S6, .i32⟩ : BufTy).Contents (Elt F) := (broadcastInDim S6 ![] bcast_S_S6 : (⟨S_, .i32⟩ : BufTy).Contents (Elt F) → (⟨S6, .i32⟩ : BufTy).Contents (Elt F)) t_c_10
  let t_v15 : (⟨S6, .i32⟩ : BufTy).Contents (Elt F) := (addi : (⟨S6, .i32⟩ : BufTy).Contents (Elt F) → (⟨S6, .i32⟩ : BufTy).Contents (Elt F) → (⟨S6, .i32⟩ : BufTy).Contents (Elt F)) t_c_2 t_v14
  let t_v16 : (⟨S6, .i32⟩ : BufTy).Contents (Elt F) := (select : (⟨S6, .i1⟩ : BufTy).Contents (Elt F) → (⟨S6, .i32⟩ : BufTy).Contents (Elt F) → (⟨S6, .i32⟩ : BufTy).Contents (Elt F) → (⟨S6, .i32⟩ : BufTy).Contents (Elt F)) t_c_3 t_v15 t_c_2
  let t_v17 : (⟨S6x1, .i32⟩ : BufTy).Contents (Elt F) := (broadcastInDim S6x1 ![0] bcast_S6_S6x1_0 : (⟨S6, .i32⟩ : BufTy).Contents (Elt F) → (⟨S6x1, .i32⟩ : BufTy).Contents (Elt F)) t_v16
  let t_c_11 : (⟨S_, .i1⟩ : BufTy).Contents (Elt F) := (constantI S_ 1 1#1)
  let t_v18 : (⟨S6, .i1⟩ : BufTy).Contents (Elt F) := (broadcastInDim S6 ![] bcast_S_S6 : (⟨S_, .i1⟩ : BufTy).Contents (Elt F) → (⟨S6, .i1⟩ : BufTy).Contents (Elt F)) t_c_11
  let t_v19 : (⟨S128, .i1⟩ : BufTy).Contents (Elt F) := ((fun x i u => Host.scatter scatter_S128_S6x1_S6_n_0_0_1 (fun _ b => b) x i u) : (⟨S128, .i1⟩ : BufTy).Contents (Elt F) → (⟨S6x1, .i32⟩ : BufTy).Contents (Elt F) → (⟨S6, .i1⟩ : BufTy).Contents (Elt F) → (⟨S128, .i1⟩ : BufTy).Contents (Elt F)) t_v13 t_v17 t_v18
  let t_c_12 : (⟨S_, .i32⟩ : BufTy).Contents (Elt F) := (constantI S_ 32 0#32)
  let t_v20 : (⟨S1024x8192, .i32⟩ : BufTy).Contents (Elt F) := (broadcastInDim S1024x8192 ![] bcast_S_S1024x8192 : (⟨S_, .i32⟩ : BufTy).Contents (Elt F) → (⟨S1024x8192, .i32⟩ : BufTy).Contents (Elt F)) t_c_12
  let t_v21 : (⟨S1024x8192, .i1⟩ : BufTy).Contents (Elt F) := (cmpi .slt : (⟨S1024x8192, .i32⟩ : BufTy).Contents (Elt F) → (⟨S1024x8192, .i32⟩ : BufTy).Contents (Elt F) → (⟨S1024x8192, .i1⟩ : BufTy).Contents (Elt F)) tk t_v20
  let t_c_13 : (⟨S_, .i32⟩ : BufTy).Contents (Elt F) := (constantI S_ 32 128#32)
  let t_v22 : (⟨S1024x8192, .i32⟩ : BufTy).Contents (Elt F) := (broadcastInDim S1024x8192 ![] bcast_S_S1024x8192 : (⟨S_, .i32⟩ : BufTy).Contents (Elt F) → (⟨S1024x8192, .i32⟩ : BufTy).Contents (Elt F)) t_c_13
  let t_v23 : (⟨S1024x8192, .i32⟩ : BufTy).Contents (Elt F) := (addi : (⟨S1024x8192, .i32⟩ : BufTy).Contents (Elt F) → (⟨S1024x8192, .i32⟩ : BufTy).Contents (Elt F) → (⟨S1024x8192, .i32⟩ : BufTy).Contents (Elt F)) tk t_v22
  let t_v24 : (⟨S1024x8192, .i32⟩ : BufTy).Contents (Elt F) := (select : (⟨S1024x8192, .i1⟩ : BufTy).Contents (Elt F) → (⟨S1024x8192, .i32⟩ : BufTy).Contents (Elt F) → (⟨S1024x8192, .i32⟩ : BufTy).Contents (Elt F) → (⟨S1024x8192, .i32⟩ : BufTy).Contents (Elt F)) t_v21 t_v23 tk
  let t_v25 : (⟨S1024x8192x1, .i32⟩ : BufTy).Contents (Elt F) := (broadcastInDim S1024x8192x1 ![0, 1] bcast_S1024x8192_S1024x8192x1_0_1 : (⟨S1024x8192, .i32⟩ : BufTy).Contents (Elt F) → (⟨S1024x8192x1, .i32⟩ : BufTy).Contents (Elt F)) t_v24
  let t_v26 : (⟨S1024x8192, .i1⟩ : BufTy).Contents (Elt F) := ((fun x i => Host.gather gather_S128_S1024x8192x1_S1024x8192_n_0_n_n_0_2_1 x i) : (⟨S128, .i1⟩ : BufTy).Contents (Elt F) → (⟨S1024x8192x1, .i32⟩ : BufTy).Contents (Elt F) → (⟨S1024x8192, .i1⟩ : BufTy).Contents (Elt F)) t_v12 t_v25
  let t_c_14 : (⟨S_, .i32⟩ : BufTy).Contents (Elt F) := (constantI S_ 32 0#32)
  let t_v27 : (⟨S1024x8192, .i32⟩ : BufTy).Contents (Elt F) := (broadcastInDim S1024x8192 ![] bcast_S_S1024x8192 : (⟨S_, .i32⟩ : BufTy).Contents (Elt F) → (⟨S1024x8192, .i32⟩ : BufTy).Contents (Elt F)) t_c_14
  let t_v28 : (⟨S1024x8192, .i1⟩ : BufTy).Contents (Elt F) := (cmpi .slt : (⟨S1024x8192, .i32⟩ : BufTy).Contents (Elt F) → (⟨S1024x8192, .i32⟩ : BufTy).Contents (Elt F) → (⟨S1024x8192, .i1⟩ : BufTy).Contents (Elt F)) tk t_v27
  let t_c_15 : (⟨S_, .i32⟩ : BufTy).Contents (Elt F) := (constantI S_ 32 128#32)
  let t_v29 : (⟨S1024x8192, .i32⟩ : BufTy).Contents (Elt F) := (broadcastInDim S1024x8192 ![] bcast_S_S1024x8192 : (⟨S_, .i32⟩ : BufTy).Contents (Elt F) → (⟨S1024x8192, .i32⟩ : BufTy).Contents (Elt F)) t_c_15
  let t_v30 : (⟨S1024x8192, .i32⟩ : BufTy).Contents (Elt F) := (addi : (⟨S1024x8192, .i32⟩ : BufTy).Contents (Elt F) → (⟨S1024x8192, .i32⟩ : BufTy).Contents (Elt F) → (⟨S1024x8192, .i32⟩ : BufTy).Contents (Elt F)) tk t_v29
  let t_v31 : (⟨S1024x8192, .i32⟩ : BufTy).Contents (Elt F) := (select : (⟨S1024x8192, .i1⟩ : BufTy).Contents (Elt F) → (⟨S1024x8192, .i32⟩ : BufTy).Contents (Elt F) → (⟨S1024x8192, .i32⟩ : BufTy).Contents (Elt F) → (⟨S1024x8192, .i32⟩ : BufTy).Contents (Elt F)) t_v28 t_v30 tk
  let t_v32 : (⟨S1024x8192x1, .i32⟩ : BufTy).Contents (Elt F) := (broadcastInDim S1024x8192x1 ![0, 1] bcast_S1024x8192_S1024x8192x1_0_1 : (⟨S1024x8192, .i32⟩ : BufTy).Contents (Elt F) → (⟨S1024x8192x1, .i32⟩ : BufTy).Contents (Elt F)) t_v31
  let t_v33 : (⟨S1024x8192, .f32⟩ : BufTy).Contents (Elt F) := ((fun x i => Host.gather gather_S128_S1024x8192x1_S1024x8192_n_0_n_n_0_2_1 x i) : (⟨S128, .f32⟩ : BufTy).Contents (Elt F) → (⟨S1024x8192x1, .i32⟩ : BufTy).Contents (Elt F) → (⟨S1024x8192, .f32⟩ : BufTy).Contents (Elt F)) t_v5 t_v32
  let t_v34 : (⟨S1024x8192, .i1⟩ : BufTy).Contents (Elt F) := (cmpf .ogt : (⟨S1024x8192, .f32⟩ : BufTy).Contents (Elt F) → (⟨S1024x8192, .f32⟩ : BufTy).Contents (Elt F) → (⟨S1024x8192, .i1⟩ : BufTy).Contents (Elt F)) x t_v33
  let t_v35 : (⟨S1024x8192, .i1⟩ : BufTy).Contents (Elt F) := (andi : (⟨S1024x8192, .i1⟩ : BufTy).Contents (Elt F) → (⟨S1024x8192, .i1⟩ : BufTy).Contents (Elt F) → (⟨S1024x8192, .i1⟩ : BufTy).Contents (Elt F)) t_v26 t_v34
  let t_v36 : (⟨S1024x8192, .f32⟩ : BufTy).Contents (Elt F) := (subf : (⟨S1024x8192, .f32⟩ : BufTy).Contents (Elt F) → (⟨S1024x8192, .f32⟩ : BufTy).Contents (Elt F) → (⟨S1024x8192, .f32⟩ : BufTy).Contents (Elt F)) x t_v33
  let t_cst_16 : (⟨S_, .f32⟩ : BufTy).Contents (Elt F) := (constant S_ .f32 0x00000000#32)
  let t_call0_v0 : (⟨S_, .f32⟩ : BufTy).Contents (Elt F) := (id) t_cst_16
  let t_call0_v1 : (⟨S1024x8192, .f32⟩ : BufTy).Contents (Elt F) := (broadcastInDim S1024x8192 ![] bcast_S_S1024x8192) t_call0_v0
  let t_v37 : (⟨S1024x8192, .f32⟩ : BufTy).Contents (Elt F) := (select) t_v35 t_v36 t_call0_v1
  let t_v38 : (⟨S1024x8191, .f32⟩ : BufTy).Contents (Elt F) := ((extractStridedSlice S1024x8191 ![0, 1] · slices_S1024x8192_S1024x8191_0_1) : (⟨S1024x8192, .f32⟩ : BufTy).Contents (Elt F) → (⟨S1024x8191, .f32⟩ : BufTy).Contents (Elt F)) x
  let t_c_17 : (⟨S_, .i32⟩ : BufTy).Contents (Elt F) := (constantI S_ 32 0#32)
  let t_call1_v0 : (⟨S_, .f32⟩ : BufTy).Contents (Elt F) := (sitofp .f32) t_c_17
  let t_v39 : (⟨S1024x8192, .f32⟩ : BufTy).Contents (Elt F) := (fun x v => pad S1024x8192 ![0, 0] ![0, 1] ![0, 0] x v pads_S1024x8191_S1024x8192_000_010 h_S_) t_v38 t_call1_v0
  let t_v40 : (⟨S8192, .i32⟩ : BufTy).Contents (Elt F) := (iotaInDim S8192 32 0)
  let t_c_18 : (⟨S_, .i32⟩ : BufTy).Contents (Elt F) := (constantI S_ 32 8191#32)
  let t_v41 : (⟨S8192, .i32⟩ : BufTy).Contents (Elt F) := (broadcastInDim S8192 ![] bcast_S_S8192 : (⟨S_, .i32⟩ : BufTy).Contents (Elt F) → (⟨S8192, .i32⟩ : BufTy).Contents (Elt F)) t_c_18
  let t_v42 : (⟨S8192, .i1⟩ : BufTy).Contents (Elt F) := (cmpi .slt : (⟨S8192, .i32⟩ : BufTy).Contents (Elt F) → (⟨S8192, .i32⟩ : BufTy).Contents (Elt F) → (⟨S8192, .i1⟩ : BufTy).Contents (Elt F)) t_v40 t_v41
  let t_v43 : (⟨S1x8192, .i1⟩ : BufTy).Contents (Elt F) := (broadcastInDim S1x8192 ![1] bcast_S8192_S1x8192_1 : (⟨S8192, .i1⟩ : BufTy).Contents (Elt F) → (⟨S1x8192, .i1⟩ : BufTy).Contents (Elt F)) t_v42
  let t_c_19 : (⟨S_, .i32⟩ : BufTy).Contents (Elt F) := (constantI S_ 32 0#32)
  let t_v44 : (⟨S1024x8192, .i32⟩ : BufTy).Contents (Elt F) := (broadcastInDim S1024x8192 ![] bcast_S_S1024x8192 : (⟨S_, .i32⟩ : BufTy).Contents (Elt F) → (⟨S1024x8192, .i32⟩ : BufTy).Contents (Elt F)) t_c_19
  let t_v45 : (⟨S1024x8192, .i1⟩ : BufTy).Contents (Elt F) := (cmpi .slt : (⟨S1024x8192, .i32⟩ : BufTy).Contents (Elt F) → (⟨S1024x8192, .i32⟩ : BufTy).Contents (Elt F) → (⟨S1024x8192, .i1⟩ : BufTy).Contents (Elt F)) tk t_v44
  let t_c_20 : (⟨S_, .i32⟩ : BufTy).Contents (Elt F) := (constantI S_ 32 128#32)
  let t_v46 : (⟨S1024x8192, .i32⟩ : BufTy).Contents (Elt F) := (broadcastInDim S1024x8192 ![] bcast_S_S1024x8192 : (⟨S_, .i32⟩ : BufTy).Contents (Elt F) → (⟨S1024x8192, .i32⟩ : BufTy).Contents (Elt F)) t_c_20
  let t_v47 : (⟨S1024x8192, .i32⟩ : BufTy).Contents (Elt F) := (addi : (⟨S1024x8192, .i32⟩ : BufTy).Contents (Elt F) → (⟨S1024x8192, .i32⟩ : BufTy).Contents (Elt F) → (⟨S1024x8192, .i32⟩ : BufTy).Contents (Elt F)) tk t_v46
  let t_v48 : (⟨S1024x8192, .i32⟩ : BufTy).Contents (Elt F) := (select : (⟨S1024x8192, .i1⟩ : BufTy).Contents (Elt F) → (⟨S1024x8192, .i32⟩ : BufTy).Contents (Elt F) → (⟨S1024x8192, .i32⟩ : BufTy).Contents (Elt F) → (⟨S1024x8192, .i32⟩ : BufTy).Contents (Elt F)) t_v45 t_v47 tk
  let t_v49 : (⟨S1024x8192x1, .i32⟩ : BufTy).Contents (Elt F) := (broadcastInDim S1024x8192x1 ![0, 1] bcast_S1024x8192_S1024x8192x1_0_1 : (⟨S1024x8192, .i32⟩ : BufTy).Contents (Elt F) → (⟨S1024x8192x1, .i32⟩ : BufTy).Contents (Elt F)) t_v48
  let t_v50 : (⟨S1024x8192, .i1⟩ : BufTy).Contents (Elt F) := ((fun x i => Host.gather gather_S128_S1024x8192x1_S1024x8192_n_0_n_n_0_2_1 x i) : (⟨S128, .i1⟩ : BufTy).Contents (Elt F) → (⟨S1024x8192x1, .i32⟩ : BufTy).Contents (Elt F) → (⟨S1024x8192, .i1⟩ : BufTy).Contents (Elt F)) t_v19 t_v49
  let t_v51 : (⟨S1024x8192, .i1⟩ : BufTy).Contents (Elt F) := (broadcastInDim S1024x8192 ![0, 1] bcast_S1x8192_S1024x8192_0_1 : (⟨S1x8192, .i1⟩ : BufTy).Contents (Elt F) → (⟨S1024x8192, .i1⟩ : BufTy).Contents (Elt F)) t_v43
  let t_v52 : (⟨S1024x8192, .i1⟩ : BufTy).Contents (Elt F) := (andi : (⟨S1024x8192, .i1⟩ : BufTy).Contents (Elt F) → (⟨S1024x8192, .i1⟩ : BufTy).Contents (Elt F) → (⟨S1024x8192, .i1⟩ : BufTy).Contents (Elt F)) t_v50 t_v51
  let t_cst_21 : (⟨S_, .f32⟩ : BufTy).Contents (Elt F) := (constant S_ .f32 0x40400000#32)
  let t_v53 : (⟨S1024x8192, .f32⟩ : BufTy).Contents (Elt F) := (broadcastInDim S1024x8192 ![] bcast_S_S1024x8192 : (⟨S_, .f32⟩ : BufTy).Contents (Elt F) → (⟨S1024x8192, .f32⟩ : BufTy).Contents (Elt F)) t_cst_21
  let t_v54 : (⟨S1024x8192, .f32⟩ : BufTy).Contents (Elt F) := (mulf : (⟨S1024x8192, .f32⟩ : BufTy).Contents (Elt F) → (⟨S1024x8192, .f32⟩ : BufTy).Contents (Elt F) → (⟨S1024x8192, .f32⟩ : BufTy).Contents (Elt F)) t_v53 x
  let t_v55 : (⟨S1024x8192, .i1⟩ : BufTy).Contents (Elt F) := (cmpf .ogt : (⟨S1024x8192, .f32⟩ : BufTy).Contents (Elt F) → (⟨S1024x8192, .f32⟩ : BufTy).Contents (Elt F) → (⟨S1024x8192, .i1⟩ : BufTy).Contents (Elt F)) t_v54 t_v39
  let t_v56 : (⟨S1024x8192, .i1⟩ : BufTy).Contents (Elt F) := (andi : (⟨S1024x8192, .i1⟩ : BufTy).Contents (Elt F) → (⟨S1024x8192, .i1⟩ : BufTy).Contents (Elt F) → (⟨S1024x8192, .i1⟩ : BufTy).Contents (Elt F)) t_v52 t_v55
  let t_cst_22 : (⟨S_, .f32⟩ : BufTy).Contents (Elt F) := (constant S_ .f32 0x40400000#32)
  let t_v57 : (⟨S1024x8192, .f32⟩ : BufTy).Contents (Elt F) := (broadcastInDim S1024x8192 ![] bcast_S_S1024x8192 : (⟨S_, .f32⟩ : BufTy).Contents (Elt F) → (⟨S1024x8192, .f32⟩ : BufTy).Contents (Elt F)) t_cst_22
  let t_v58 : (⟨S1024x8192, .f32⟩ : BufTy).Contents (Elt F) := (Host.divf : (⟨S1024x8192, .f32⟩ : BufTy).Contents (Elt F) → (⟨S1024x8192, .f32⟩ : BufTy).Contents (Elt F) → (⟨S1024x8192, .f32⟩ : BufTy).Contents (Elt F)) t_v39 t_v57
  let t_v59 : (⟨S1024x8192, .f32⟩ : BufTy).Contents (Elt F) := (subf : (⟨S1024x8192, .f32⟩ : BufTy).Contents (Elt F) → (⟨S1024x8192, .f32⟩ : BufTy).Contents (Elt F) → (⟨S1024x8192, .f32⟩ : BufTy).Contents (Elt F)) x t_v58
  let t_cst_23 : (⟨S_, .f32⟩ : BufTy).Contents (Elt F) := (constant S_ .f32 0x00000000#32)
  let t_call2_v0 : (⟨S_, .f32⟩ : BufTy).Contents (Elt F) := (id) t_cst_23
  let t_call2_v1 : (⟨S1024x8192, .f32⟩ : BufTy).Contents (Elt F) := (broadcastInDim S1024x8192 ![] bcast_S_S1024x8192) t_call2_v0
  let t_v60 : (⟨S1024x8192, .f32⟩ : BufTy).Contents (Elt F) := (select) t_v56 t_v59 t_call2_v1
  let t_v61 : (⟨S1024x8192, .f32⟩ : BufTy).Contents (Elt F) := (addf : (⟨S1024x8192, .f32⟩ : BufTy).Contents (Elt F) → (⟨S1024x8192, .f32⟩ : BufTy).Contents (Elt F) → (⟨S1024x8192, .f32⟩ : BufTy).Contents (Elt F)) t_v37 t_v60
  let t_v62 : (⟨S1024x8191, .f32⟩ : BufTy).Contents (Elt F) := ((extractStridedSlice S1024x8191 ![0, 1] · slices_S1024x8192_S1024x8191_0_1) : (⟨S1024x8192, .f32⟩ : BufTy).Contents (Elt F) → (⟨S1024x8191, .f32⟩ : BufTy).Contents (Elt F)) t_v61
  let t_c_24 : (⟨S_, .i32⟩ : BufTy).Contents (Elt F) := (constantI S_ 32 0#32)
  let t_call3_v0 : (⟨S_, .f32⟩ : BufTy).Contents (Elt F) := (sitofp .f32) t_c_24
  let t_v63 : (⟨S1024x8192, .f32⟩ : BufTy).Contents (Elt F) := (fun x v => pad S1024x8192 ![0, 0] ![0, 1] ![0, 0] x v pads_S1024x8191_S1024x8192_000_010 h_S_) t_v62 t_call3_v0
  let t_v64 : (⟨S1024x8192, .f32⟩ : BufTy).Contents (Elt F) := (subf : (⟨S1024x8192, .f32⟩ : BufTy).Contents (Elt F) → (⟨S1024x8192, .f32⟩ : BufTy).Contents (Elt F) → (⟨S1024x8192, .f32⟩ : BufTy).Contents (Elt F)) x t_v61
  let t_v65 : (⟨S1024x8192, .f32⟩ : BufTy).Contents (Elt F) := (addf : (⟨S1024x8192, .f32⟩ : BufTy).Contents (Elt F) → (⟨S1024x8192, .f32⟩ : BufTy).Contents (Elt F) → (⟨S1024x8192, .f32⟩ : BufTy).Contents (Elt F)) t_v64 t_v63
  let t_cst_25 : (⟨S_, .f32⟩ : BufTy).Contents (Elt F) := (constant S_ .f32 0x3F800000#32)
  let t_v66 : (⟨S1024x8192, .f32⟩ : BufTy).Contents (Elt F) := (broadcastInDim S1024x8192 ![] bcast_S_S1024x8192 : (⟨S_, .f32⟩ : BufTy).Contents (Elt F) → (⟨S1024x8192, .f32⟩ : BufTy).Contents (Elt F)) t_cst_25
  let t_v67 : (⟨S1024x8192, .f32⟩ : BufTy).Contents (Elt F) := (addf : (⟨S1024x8192, .f32⟩ : BufTy).Contents (Elt F) → (⟨S1024x8192, .f32⟩ : BufTy).Contents (Elt F) → (⟨S1024x8192, .f32⟩ : BufTy).Contents (Elt F)) x t_v66
  let t_v68 : (⟨S1024x8192, .f32⟩ : BufTy).Contents (Elt F) := (Host.log : (⟨S1024x8192, .f32⟩ : BufTy).Contents (Elt F) → (⟨S1024x8192, .f32⟩ : BufTy).Contents (Elt F)) t_v67
  let t_cst_26 : (⟨S_, .f32⟩ : BufTy).Contents (Elt F) := (constant S_ .f32 0x3F800000#32)
  let t_v69 : (⟨S1024x8192, .f32⟩ : BufTy).Contents (Elt F) := (broadcastInDim S1024x8192 ![] bcast_S_S1024x8192 : (⟨S_, .f32⟩ : BufTy).Contents (Elt F) → (⟨S1024x8192, .f32⟩ : BufTy).Contents (Elt F)) t_cst_26
  let t_v70 : (⟨S1024x8192, .f32⟩ : BufTy).Contents (Elt F) := (addf : (⟨S1024x8192, .f32⟩ : BufTy).Contents (Elt F) → (⟨S1024x8192, .f32⟩ : BufTy).Contents (Elt F) → (⟨S1024x8192, .f32⟩ : BufTy).Contents (Elt F)) t_v65 t_v69
  let t_v71 : (⟨S1024x8192, .f32⟩ : BufTy).Contents (Elt F) := (Host.log : (⟨S1024x8192, .f32⟩ : BufTy).Contents (Elt F) → (⟨S1024x8192, .f32⟩ : BufTy).Contents (Elt F)) t_v70
  let t_v72 : (⟨S1024x8192, .f32⟩ : BufTy).Contents (Elt F) := (subf : (⟨S1024x8192, .f32⟩ : BufTy).Contents (Elt F) → (⟨S1024x8192, .f32⟩ : BufTy).Contents (Elt F) → (⟨S1024x8192, .f32⟩ : BufTy).Contents (Elt F)) t_v68 t_v71
  let t_v73 : (⟨S1024x8192, .f32⟩ : BufTy).Contents (Elt F) := (mulf : (⟨S1024x8192, .f32⟩ : BufTy).Contents (Elt F) → (⟨S1024x8192, .f32⟩ : BufTy).Contents (Elt F) → (⟨S1024x8192, .f32⟩ : BufTy).Contents (Elt F)) t_v72 t_v72
  let t_cst_27 : (⟨S_, .f32⟩ : BufTy).Contents (Elt F) := (constant S_ .f32 0x00000000#32)
  let t_v74 : (⟨S_, .f32⟩ : BufTy).Contents (Elt F) := ((fun x v => Host.reduceAdd x v reducesTo_S1024x8192_S_d0_1 h_S_) : (⟨S1024x8192, .f32⟩ : BufTy).Contents (Elt F) → (⟨S_, .f32⟩ : BufTy).Contents (Elt F) → (⟨S_, .f32⟩ : BufTy).Contents (Elt F)) t_v73 t_cst_27
  let t_cst_28 : (⟨S_, .f32⟩ : BufTy).Contents (Elt F) := (constant S_ .f32 0x4B000000#32)
  let t_v75 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) t_v74 t_cst_28
  let t_cst_29 : (⟨S_, .f32⟩ : BufTy).Contents (Elt F) := (constant S_ .f32 0x3F19999A#32)
  let t_v76 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) t_cst_29 t_v75
  t_v76

end Cert.ReferenceIdeal.Hand

end
-- ==== Proof.RefRun.lean ====
/-
  The reference program's run: @main is the straight line of its host operations (each outlined function's lines at
  its call), so every weakly fair execution terminates with the result buffer at the operations' composed value of
  the two argument arrays, and the arguments as they were.
-/
import proofs.«427785_j46961172414632_3_alg».proof.Proof.RefOps
import proofs.«427785_j46961172414632_3_alg».proof.Proof.RefTerm
import Idealize.ShloMosaic.Lib.StableHlo.Run

noncomputable section

namespace Cert.ReferenceIdeal.Hand

open Idealize.ShloMosaic Idealize.ShloMosaic.TcCoe Idealize.ShloMosaic.StableHlo Idealize.SL.Sem Cert.ReferenceIdeal Cert.ReferenceIdeal.Facts₀

variable {F : FTy → Type} [FloatOps F] [Cert.ReferenceIdeal.Facts]

/-! ## @main is the line of its operations

@main runs its two windows in order. Each window is the line of its own stretch of the list: the first 63
operations (58 of @main's own and the five of the two calls it makes), then the remaining 52. Unfolding an
outlined function's body at its call leaves a sequence nested to the left of what follows it; sequencing is
associative, and a body's closing `pure` is a left unit, so each window reassociates to one right-nested chain
of `hlo` steps, which is what `seq` computes on its stretch. -/

set_option maxRecDepth 8192 in
set_option maxHeartbeats 2000000 in
/-- The first window is the line of the first 63 operations. -/
theorem part0_eq (c : Dev nD) : main_part0 (F := F) c = seq (ops.take 63) := by
  simp only [main_part0, fn_where.body, fn_pad.body, bind_assoc, pure_bind]
  rfl

set_option maxRecDepth 8192 in
set_option maxHeartbeats 2000000 in
/-- The second window is the line of the remaining 52 operations. -/
theorem part1_eq (c : Dev nD) : main_part1 (F := F) c = seq (ops.drop 63) := by
  simp only [main_part1, fn_where.body, fn_pad.body, bind_assoc, pure_bind]
  rfl

/-- @main is the line of all 115 operations: two lines run one after the other are their concatenation run as
    one (`seq_append`), and a list is its first 63 elements followed by the rest. -/
theorem main_eq (c : Dev nD) : main (F := F) c = seq ops :=
  calc main (F := F) c = (main_part0 c >>= fun _ => main_part1 c) := rfl
    _ = (seq (ops.take 63) >>= fun _ => seq (ops.drop 63)) := by rw [part0_eq, part1_eq]
    _ = seq (ops.take 63 ++ ops.drop 63) := (seq_append _ _).symm
    _ = seq ops := by rw [List.take_append_drop]

/-! ## The side conditions of a straight-line run

The signature scopes no buffer and no semaphore, and every operation reads and writes TensorCore buffers only. -/

theorem scopedRefs_eq : (Finset.univ.filter fun b : Ref sig .tc => b.isScoped) = ∅ := by decide
theorem scopedSems_eq : (Finset.univ.filter fun sm : SemLoc sig => sm.isScoped .tc) = ∅ := by decide

/-- Each operation's buffers are TensorCore references: one fact per operation, in the list's order, by the
    operation's arity. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., unary_bufs_sub .., nullary_bufs_sub .., unary_bufs_sub .., binary_bufs_sub .., ternary_bufs_sub ..,
    unary_bufs_sub .., ternary_bufs_sub .., nullary_bufs_sub .., unary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., nullary_bufs_sub .., unary_bufs_sub .., binary_bufs_sub .., ternary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    binary_bufs_sub .., nullary_bufs_sub .., unary_bufs_sub .., unary_bufs_sub .., ternary_bufs_sub .., unary_bufs_sub ..,
    nullary_bufs_sub .., unary_bufs_sub .., binary_bufs_sub .., nullary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., binary_bufs_sub .., nullary_bufs_sub .., unary_bufs_sub ..,
    unary_bufs_sub .., ternary_bufs_sub .., binary_bufs_sub .., unary_bufs_sub .., nullary_bufs_sub .., unary_bufs_sub ..,
    binary_bufs_sub .., binary_bufs_sub .., binary_bufs_sub .., nullary_bufs_sub .., unary_bufs_sub .., binary_bufs_sub ..,
    unary_bufs_sub .., nullary_bufs_sub .., unary_bufs_sub .., binary_bufs_sub .., unary_bufs_sub .., binary_bufs_sub ..,
    binary_bufs_sub .., nullary_bufs_sub .., binary_bufs_sub .., nullary_bufs_sub .., binary_bufs_sub .., nullary_bufs_sub ..,
    binary_bufs_sub ..⟩

/-! ## The fold read at the three buffers

`after ops V` rewrites, operation by operation, the buffer the operation writes to its function's value of the
buffers it reads, and leaves every other buffer. Read at the result buffer this is, from the last operation
back, each function applied to the values of the operations before it: the chain `refTerm` states, at the
contents `V` has in the two argument buffers. A typed reference at a literal buffer carries the buffer's own
type, so the transports along that equation are the identity. The gather, scatter, pad and sum are carried as
names: the equation is between two copies of the same composed term and never looks inside them. -/

attribute [local irreducible] Host.reduceAdd Host.gather Host.scatter pad in
set_option maxRecDepth 16384 in
set_option maxHeartbeats 4000000 in
/-- The result buffer after the operations holds the composed value of the two argument arrays. -/
theorem out_eq (V : Valuation τ sig (Elt F)) :
    after ops V (main_v76 : DevRef τ sig)
      = refTerm (V (main_arg0 : DevRef τ sig)) (V (main_arg1 : DevRef τ sig)) := by
  after_results_simp
  simp only [TRef.ofBuf, TRef.toBuf, cast_eq]
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-! ## The run -/

set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
        = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v76).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.Hand

end
-- ==== Proof.RefRead.lean ====
/-
  The reference's composed value read on the extended reals: with every token inside the 128-entry tables it is
  0.6 times (the sum over all positions of the squared difference of logarithms, divided by 2^23).

  The three tables are scatters that overwrite a constant at six distinct keys, so an entry is the update whose key it
  is, or the constant; a gather at a token below 128 reads the entry at the token; a slice followed by a pad of one
  zero column is the shift one place to the left; the two selects under their conjunctions of bits are the two gaps.
-/
import proofs.«427785_j46961172414632_3_alg».proof.Proof.RefTerm
import proofs.«427785_j46961172414632_3_alg».proof.Proof.Spec
import proofs.«427785_j46961172414632_3_alg».proof.Proof.Consts
import Idealize.ShloMosaic.Lib.StableHlo.Predicate
import Idealize.ShloMosaic.Lib.KernelVsHost
import Idealize.ShloMosaic.Lib.Pipeline.Value
import Idealize.ShloMosaic.Lib.IdealHost
import Idealize.ShloMosaic.Lib.ValueIdx
import Idealize.ShloMosaic.PureOps.Ideal.Laws

noncomputable section

namespace Cert.ReferenceIdeal.Hand

open Idealize.ShloMosaic Idealize.ShloMosaic.ValueIdx Idealize.ShloMosaic.StableHlo.Predicate Cert.ReferenceIdeal Cert.ReferenceIdeal.Facts₀

variable [Cert.ReferenceIdeal.Facts]

/-! ## A scatter whose body returns the update, read at one index -/

section SetFold
variable {α β ι : Type}

/-- A left fold of steps none of which changes the value at `b` leaves the value at `b`. -/
theorem foldl_keep_at (step : (β → α) → ι → (β → α)) (b : β) (L : List ι)
    (hL : ∀ n ∈ L, ∀ r, step r n b = r b) (r : β → α) : L.foldl step r b = r b := by
  induction L generalizing r with
  | nil => rfl
  | cons n L ih =>
    rw [List.foldl_cons, ih (fun m hm => hL m (List.mem_cons_of_mem _ hm)), hL n List.mem_cons_self]

/-- A left fold over a list without repeats in which exactly one step sets the value at `b`, to `v`, ends with
    `v` at `b`. -/
theorem foldl_set_at (step : (β → α) → ι → (β → α)) (b : β) (v : α) (n0 : ι) (L : List ι) (hnd : L.Nodup) (hmem : n0 ∈ L)
    (hset : ∀ r, step r n0 b = v) (hkeep : ∀ n ∈ L, n ≠ n0 → ∀ r, step r n b = r b) (r : β → α) :
    L.foldl step r b = v := by
  induction L generalizing r with
  | nil => exact absurd hmem List.not_mem_nil
  | cons n L ih =>
    rw [List.foldl_cons]
    rw [List.nodup_cons] at hnd
    by_cases hn : n = n0
    · subst hn
      rw [foldl_keep_at step b L (fun m hm => hkeep m (List.mem_cons_of_mem _ hm) (fun e => hnd.1 (e ▸ hm))), hset]
    · have hm : n0 ∈ L := by
        rcases List.mem_cons.mp hmem with e | e
        · exact absurd e.symm hn
        · exact e
      exact ih hnd.2 hm (fun m hm' => hkeep m (List.mem_cons_of_mem _ hm')) _

end SetFold

section SetScatter
variable {α : Type} {s si u : Shape} {w : Nat}

/-- Where exactly one update lands on `i`, the scatter that overwrites holds that update at `i`. -/
theorem scatter_set_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  unfold Host.scatter
  refine foldl_set_at _ i (upd j) (u.rowMajor j) _ (List.nodup_finRange _) (List.mem_finRange _) ?_ ?_ x
  · intro r
    simp only [Equiv.symm_apply_apply, hj, if_true]
  · intro n _ hn r
    cases h : d.resultIdx? (u.rowMajor.symm n) idx with
    | none => simp only [h]
    | some i' =>
      simp only [h]
      have hne : i ≠ i' := by
        intro e
        subst e
        exact hn ((Equiv.symm_apply_eq _).mp (huniq _ h))
      rw [if_neg hne]

/-- Where no update lands on `i`, the scatter keeps the operand at `i`. -/
theorem scatter_set_miss (d : ScatterDims s si u) (x : s.Idx → α) (idx : IVec si w) (upd : u.Idx → α) (i : s.Idx)
    (hno : ∀ j', d.resultIdx? j' idx ≠ some i) :
    Host.scatter d (fun _ b => b) x idx upd i = x i := by
  unfold Host.scatter
  refine foldl_keep_at _ i _ ?_ x
  intro n _ r
  cases h : d.resultIdx? (u.rowMajor.symm n) idx with
  | none => simp only [h]
  | some i' =>
    simp only [h]
    have hne : i ≠ i' := by
      intro e
      subst e
      exact hno _ h
    rw [if_neg hne]

end SetScatter

/-! ## The three 128-entry tables and their reads at a token -/

/-- Position `k` of a six-entry literal list is entry `k`. -/
theorem lit_rowMajor {β : Type} (lit : Fin 6 → β) (k : Fin 6) : lit (S6.rowMajor (ix1 k)) = lit k :=
  congrArg lit (Fin.ext (Shape.rowMajor_val_one _))

/-- The column of scatter positions the program builds from six literal keys: the keys themselves (the branch that
    would add 128 is taken nowhere: its mask is constant false). -/
def keyCol (lit : Fin 6 → BitVec 32) : IVec S6x1 32 :=
  broadcastInDim S6x1 ![0] bcast_S6_S6x1_0
    (select (constantI S6 1 0#1)
      (addi (fun i => lit (S6.rowMajor i)) (broadcastInDim S6 ![] bcast_S_S6 (constantI S_ 32 128#32)))
      (fun i => lit (S6.rowMajor i)))

theorem keyCol_apply (lit : Fin 6 → BitVec 32) (k : Fin 6) : keyCol lit (ix2 k (0 : Fin 1)) = lit k := by
  have e : (ix2 k (0 : Fin 1) : S6x1.Idx) = ixP k := by
    funext b
    match b with
    | ⟨0, _⟩ => rfl
    | ⟨1, _⟩ => rfl
  unfold keyCol
  rw [e]
  refine (bcast_col1 bcast_S6_S6x1_0 _ k).trans ?_
  rw [select_apply]
  show Scalar.select 0#1 _ _ = _
  rw [select_zero]
  exact lit_rowMajor lit k

/-- Update `k` lands on the table entry its key names, when the key is below 128. -/
theorem resultIdx_key (col : IVec S6x1 32) (k : Fin 6) (hlt : (col (ix2 k (0 : Fin 1))).toNat < 128) :
    scatter_S128_S6x1_S6_n_0_0_1.resultIdx? (ix1 k) col = some (ix1 ⟨(col (ix2 k (0 : Fin 1))).toNat, hlt⟩) := by
  have hstart : ∀ a : Fin S128.rank, scatter_S128_S6x1_S6_n_0_0_1.start (ix1 k) col a = (col (ix2 k (0 : Fin 1))).toInt := by
    intro a
    obtain rfl : a = 0 := Subsingleton.elim _ _
    unfold ScatterDims.start
    rw [dif_pos (show (0 : Fin 1) ∈ scatter_S128_S6x1_S6_n_0_0_1.scatterDimsToOperandDims from List.mem_singleton.mpr rfl)]
    refine congrArg (fun q => (col q).toInt) (funext fun b => Fin.ext ?_)
    match b with
    | ⟨0, _⟩ => rfl
    | ⟨1, _⟩ => rfl
  have hwin : ∀ a : Fin S128.rank, scatter_S128_S6x1_S6_n_0_0_1.window (ix1 k : S6.Idx) a = 0 := by
    intro a
    obtain rfl : a = 0 := Subsingleton.elim _ _
    rfl
  have hti : (col (ix2 k (0 : Fin 1))).toInt = ((col (ix2 k (0 : Fin 1))).toNat : Int) := toInt_eq_toNat_of_lt (by omega)
  unfold ScatterDims.resultIdx?
  rw [dif_pos (fun a => by
    rw [hstart a, hwin a, hti]
    obtain rfl : a = 0 := Subsingleton.elim _ _
    show 0 ≤ ((col (ix2 k (0 : Fin 1))).toNat : Int) + ((0 : Nat) : Int) ∧ ((col (ix2 k (0 : Fin 1))).toNat : Int) + ((0 : Nat) : Int) < ((128 : Nat) : Int)
    omega)]
  refine congrArg some (funext fun a => Fin.ext ?_)
  obtain rfl : a = 0 := Subsingleton.elim _ _
  show (scatter_S128_S6x1_S6_n_0_0_1.start (ix1 k) col 0 + (scatter_S128_S6x1_S6_n_0_0_1.window (ix1 k : S6.Idx) 0 : Int)).toNat = (col (ix2 k (0 : Fin 1))).toNat
  rw [hstart, hwin, hti]
  omega

section Table
variable {α : Type} (x0 : S128.Idx → α) (upd : S6.Idx → α) (key : Fin 6 → BitVec 32)
  (hrange : ∀ k, (key k).toNat < 128) (hinj : Function.Injective key) (t : BitVec 32) (ht : t.toNat < 128)
include hrange hinj

/-- Entry `t` of a table written at six distinct keys holds update `k` when `t` is key `k`. -/
theorem table_hit (k : Fin 6) (hk : key k = t) :
    Host.scatter scatter_S128_S6x1_S6_n_0_0_1 (fun _ b => b) x0 (keyCol key) upd (ix1 ⟨t.toNat, ht⟩) = upd (ix1 k) := by
  have hres : ∀ k' : Fin 6, scatter_S128_S6x1_S6_n_0_0_1.resultIdx? (ix1 k') (keyCol key)
      = some (ix1 ⟨(key k').toNat, hrange k'⟩) := fun k' =>
    (resultIdx_key (keyCol key) k' (by rw [keyCol_apply]; exact hrange k')).trans
      (congrArg some (congrArg ix1 (Fin.ext (by show (keyCol key (ix2 k' (0 : Fin 1))).toNat = _; rw [keyCol_apply]))))
  refine scatter_set_hit _ x0 _ upd _ (ix1 k) ?_ ?_
  · exact (hres k).trans (congrArg some (congrArg ix1 (Fin.ext (by show (key k).toNat = t.toNat; rw [hk]))))
  · intro j' hj'
    obtain ⟨k', rfl⟩ : ∃ k' : Fin 6, j' = ix1 k' := ⟨j' 0, eq_ix1 j'⟩
    rw [hres k'] at hj'
    have h1 : (ix1 (⟨(key k').toNat, hrange k'⟩ : Fin 128) : S128.Idx) = ix1 ⟨t.toNat, ht⟩ := Option.some.inj hj'
    have h2 : (⟨(key k').toNat, hrange k'⟩ : Fin 128).val = (⟨t.toNat, ht⟩ : Fin 128).val := congrArg Fin.val (congrFun h1 0)
    have h3 : key k' = key k := by rw [hk]; exact BitVec.eq_of_toNat_eq h2
    rw [hinj h3]

/-- Entry `t` of such a table keeps the operand's value when `t` is none of the keys. -/
theorem table_miss (hk : ∀ k, key k ≠ t) :
    Host.scatter scatter_S128_S6x1_S6_n_0_0_1 (fun _ b => b) x0 (keyCol key) upd (ix1 ⟨t.toNat, ht⟩) = x0 (ix1 ⟨t.toNat, ht⟩) := by
  refine scatter_set_miss _ x0 _ upd _ ?_
  intro j' hj'
  obtain ⟨k', rfl⟩ : ∃ k' : Fin 6, j' = ix1 k' := ⟨j' 0, eq_ix1 j'⟩
  rw [resultIdx_key (keyCol key) k' (by rw [keyCol_apply]; exact hrange k')] at hj'
  have h1 := Option.some.inj hj'
  have h2 : (⟨(keyCol key (ix2 k' (0 : Fin 1))).toNat, by rw [keyCol_apply]; exact hrange k'⟩ : Fin 128).val = (⟨t.toNat, ht⟩ : Fin 128).val :=
    congrArg Fin.val (congrFun h1 0)
  have h3 : (keyCol key (ix2 k' (0 : Fin 1))).toNat = t.toNat := h2
  rw [keyCol_apply] at h3
  exact hk k' (BitVec.eq_of_toNat_eq h3)

end Table

/-- The gather position the program builds from a token: the token itself when it is not negative as a signed word
    (the branch that would add 128 is for negative tokens), along a third axis of extent one. -/
def tokIdx (tk : IVec S1024x8192 32) : IVec S1024x8192x1 32 :=
  broadcastInDim S1024x8192x1 ![0, 1] bcast_S1024x8192_S1024x8192x1_0_1
    (select (cmpi .slt tk (broadcastInDim S1024x8192 ![] bcast_S_S1024x8192 (constantI S_ 32 0#32)))
      (addi tk (broadcastInDim S1024x8192 ![] bcast_S_S1024x8192 (constantI S_ 32 128#32))) tk)

theorem tokIdx_apply (tk : IVec S1024x8192 32) (i : Fin 1024) (j : Fin 8192) (hlt : (tk (ix2 i j)).toNat < 128) :
    tokIdx tk (takeIdx (ix2 i j)) = tk (ix2 i j) := by
  have e : ∀ v : IVec S1024x8192 32,
      broadcastInDim S1024x8192x1 ![0, 1] bcast_S1024x8192_S1024x8192x1_0_1 v (takeIdx (ix2 i j)) = v (ix2 i j) := by
    intro v
    simp only [broadcastInDim]
    refine congrArg v (funext fun a => ?_)
    match a with
    | ⟨0, _⟩ => rfl
    | ⟨1, _⟩ => rfl
  unfold tokIdx
  rw [e]
  show Scalar.select (IntOp.cmpi .slt (tk (ix2 i j)) 0#32) (IntOp.addi (tk (ix2 i j)) 128#32) (tk (ix2 i j)) = tk (ix2 i j)
  have hc : IntOp.cmpi .slt (tk (ix2 i j)) 0#32 = 0#1 :=
    eq_zero_of_ne_one fun h => Nat.not_lt_zero _ ((slt_iff_toNat (by omega) (by decide)).mp h)
  rw [hc, select_zero]

/-- A 128-entry table gathered at the token array reads, at a position whose token is below 128, the table's entry
    at that token. -/
theorem take_read {α : Type} (T : S128.Idx → α) (tk : IVec S1024x8192 32) (i : Fin 1024) (j : Fin 8192)
    (hlt : (tk (ix2 i j)).toNat < 128) :
    Host.gather gather_S128_S1024x8192x1_S1024x8192_n_0_n_n_0_2_1 T (tokIdx tk) (ix2 i j)
      = T (ix1 ⟨(tk (ix2 i j)).toNat, hlt⟩) := by
  refine (gather_take_apply (N := 128) (R := 1024) (C := 8192) (by decide)
    gather_S128_S1024x8192x1_S1024x8192_n_0_n_n_0_2_1_wf T (tokIdx tk) (ix2 i j)).trans ?_
  refine congrArg T (congrArg ix1 (Fin.ext ?_))
  show min (tokIdx tk (takeIdx (ix2 i j))).toInt.toNat (128 - 1) = (tk (ix2 i j)).toNat
  rw [tokIdx_apply tk i j hlt, toInt_eq_toNat_of_lt (by omega), Int.toNat_natCast]
  omega

theorem lit1_range : ∀ k, (lit1 k).toNat < 128 := by decide
theorem lit1_inj : Function.Injective lit1 := by intro a b; revert a b; decide
theorem lit2_range : ∀ k, (lit2 k).toNat < 128 := by decide
theorem lit2_inj : Function.Injective lit2 := by intro a b; revert a b; decide

/-- The table of expected durations: zero, overwritten at the six keys of the first rule. -/
def expTable : FVec Ideal S128 .f32 :=
  Host.scatter scatter_S128_S6x1_S6_n_0_0_1 (fun _ b => b)
    (broadcastInDim S128 ![] bcast_S_S128 (constant (F := Ideal) S_ .f32 0x00000000#32)) (keyCol lit1)
    (fun i => FloatOps.ofBits (F := Ideal) .f32 (lit0 (S6.rowMajor i)))

/-- A table of booleans: false, overwritten by true at six keys. -/
def maskTable (key : Fin 6 → BitVec 32) : IVec S128 1 :=
  Host.scatter scatter_S128_S6x1_S6_n_0_0_1 (fun _ b => b)
    (broadcastInDim S128 ![] bcast_S_S128 (constantI S_ 1 0#1)) (keyCol key)
    (broadcastInDim S6 ![] bcast_S_S6 (constantI S_ 1 1#1))

/-- At key `k` of the first rule the expected duration is the `k`-th literal. -/
theorem expected_key (k : Fin 6) : Cert.Rules.expected (lit1 k) = Ideal.ofBits .f32 (lit0 k) := by
  fin_cases k
  · show Cert.Rules.expected 94#32 = Ideal.ofBits .f32 0x40000000#32
    unfold Cert.Rules.expected
    rw [if_neg (by decide), if_neg (by decide), if_neg (by decide), if_neg (by decide), if_neg (by decide), if_pos rfl,
      Cert.Rules.Consts.ofBits_two]
  · show Cert.Rules.expected 122#32 = Ideal.ofBits .f32 0x40400000#32
    unfold Cert.Rules.expected
    rw [if_neg (by decide), if_neg (by decide), if_neg (by decide), if_neg (by decide), if_pos rfl,
      Cert.Rules.Consts.ofBits_three]
  · show Cert.Rules.expected 100#32 = Ideal.ofBits .f32 0x40000000#32
    unfold Cert.Rules.expected
    rw [if_neg (by decide), if_neg (by decide), if_neg (by decide), if_pos rfl, Cert.Rules.Consts.ofBits_two]
  · show Cert.Rules.expected 92#32 = Ideal.ofBits .f32 0x40000000#32
    unfold Cert.Rules.expected
    rw [if_neg (by decide), if_neg (by decide), if_pos rfl, Cert.Rules.Consts.ofBits_two]
  · show Cert.Rules.expected 43#32 = Ideal.ofBits .f32 0x40A00000#32
    unfold Cert.Rules.expected
    rw [if_neg (by decide), if_pos rfl, Cert.Rules.Consts.ofBits_five]
  · show Cert.Rules.expected 27#32 = Ideal.ofBits .f32 0x40A00000#32
    unfold Cert.Rules.expected
    rw [if_pos rfl, Cert.Rules.Consts.ofBits_five]

/-- Off the six keys the expected duration is zero. -/
theorem expected_not_key (t : BitVec 32) (h : ∀ k, lit1 k ≠ t) : Cert.Rules.expected t = 0 := by
  unfold Cert.Rules.expected
  rw [if_neg (fun e => h 5 e.symm), if_neg (fun e => h 4 e.symm), if_neg (fun e => h 3 e.symm),
    if_neg (fun e => h 2 e.symm), if_neg (fun e => h 1 e.symm), if_neg (fun e => h 0 e.symm)]

/-- Every literal of the table is positive. -/
theorem lit0_pos (k : Fin 6) : (0 : EReal) < Ideal.ofBits .f32 (lit0 k) := by
  fin_cases k
  · show (0 : EReal) < Ideal.ofBits .f32 0x40000000#32
    rw [Cert.Rules.Consts.ofBits_two]; exact_mod_cast (by norm_num : (0 : ℝ) < 2)
  · show (0 : EReal) < Ideal.ofBits .f32 0x40400000#32
    rw [Cert.Rules.Consts.ofBits_three]; exact_mod_cast (by norm_num : (0 : ℝ) < 3)
  · show (0 : EReal) < Ideal.ofBits .f32 0x40000000#32
    rw [Cert.Rules.Consts.ofBits_two]; exact_mod_cast (by norm_num : (0 : ℝ) < 2)
  · show (0 : EReal) < Ideal.ofBits .f32 0x40000000#32
    rw [Cert.Rules.Consts.ofBits_two]; exact_mod_cast (by norm_num : (0 : ℝ) < 2)
  · show (0 : EReal) < Ideal.ofBits .f32 0x40A00000#32
    rw [Cert.Rules.Consts.ofBits_five]; exact_mod_cast (by norm_num : (0 : ℝ) < 5)
  · show (0 : EReal) < Ideal.ofBits .f32 0x40A00000#32
    rw [Cert.Rules.Consts.ofBits_five]; exact_mod_cast (by norm_num : (0 : ℝ) < 5)

/-- A token has a positive expected duration exactly when it is one of the six keys of the first rule. -/
theorem expected_pos_iff (t : BitVec 32) : 0 < Cert.Rules.expected t ↔ ∃ k, lit1 k = t := by
  constructor
  · intro h
    by_contra hne
    rw [expected_not_key t fun k e => hne ⟨k, e⟩] at h
    exact lt_irrefl _ h
  · rintro ⟨k, rfl⟩
    rw [expected_key]
    exact lit0_pos k

/-- The six tokens of the second rule are the six keys of the second mask. -/
theorem ratioKey_iff (t : BitVec 32) : Cert.Rules.ratioKey t ↔ ∃ k, lit2 k = t := by
  unfold Cert.Rules.ratioKey
  constructor
  · rintro (h | h | h | h | h | h)
    · exact ⟨0, h.symm⟩
    · exact ⟨1, h.symm⟩
    · exact ⟨2, h.symm⟩
    · exact ⟨3, h.symm⟩
    · exact ⟨4, h.symm⟩
    · exact ⟨5, h.symm⟩
  · rintro ⟨k, rfl⟩
    fin_cases k
    · exact Or.inl rfl
    · exact Or.inr (Or.inl rfl)
    · exact Or.inr (Or.inr (Or.inl rfl))
    · exact Or.inr (Or.inr (Or.inr (Or.inl rfl)))
    · exact Or.inr (Or.inr (Or.inr (Or.inr (Or.inl rfl))))
    · exact Or.inr (Or.inr (Or.inr (Or.inr (Or.inr rfl))))

/-- The table of expected durations at a token below 128 is the specification's expected duration. -/
theorem expTable_read (t : BitVec 32) (ht : t.toNat < 128) : expTable (ix1 ⟨t.toNat, ht⟩) = Cert.Rules.expected t := by
  unfold expTable
  by_cases h : ∃ k, lit1 k = t
  · obtain ⟨k, rfl⟩ := h
    rw [table_hit _ _ lit1 lit1_range lit1_inj (lit1 k) ht k rfl]
    show Ideal.ofBits .f32 (lit0 (S6.rowMajor (ix1 k))) = _
    rw [lit_rowMajor lit0 k, expected_key]
  · have h' : ∀ k, lit1 k ≠ t := fun k e => h ⟨k, e⟩
    rw [table_miss _ _ lit1 lit1_range lit1_inj t ht h', expected_not_key t h']
    exact Ideal.ofBits_zero_f32

/-- A table of booleans at a token below 128 is true exactly at its six keys. -/
theorem maskTable_read (key : Fin 6 → BitVec 32) (hrange : ∀ k, (key k).toNat < 128) (hinj : Function.Injective key)
    (t : BitVec 32) (ht : t.toNat < 128) : maskTable key (ix1 ⟨t.toNat, ht⟩) = 1#1 ↔ ∃ k, key k = t := by
  unfold maskTable
  constructor
  · intro h
    by_contra hne
    rw [table_miss _ _ key hrange hinj t ht fun k e => hne ⟨k, e⟩] at h
    exact absurd (show (0#1 : BitVec 1) = 1#1 from h) (by decide)
  · rintro ⟨k, hk⟩
    rw [table_hit _ _ key hrange hinj t ht k hk]
    rfl

/-- Slicing off the first column and padding a zero column on the right moves every row one place to the left. -/
theorem shift_read (f : FVec Ideal S1024x8192 .f32) (i : Fin 1024) (j : Fin 8192) :
    pad S1024x8192 ![0, 0] ![0, 1] ![0, 0] (extractStridedSlice S1024x8191 ![0, 1] f slices_S1024x8192_S1024x8191_0_1)
        (sitofp (F := Ideal) .f32 (constantI S_ 32 0#32)) pads_S1024x8191_S1024x8192_000_010 h_S_ (ix2 i j)
      = Cert.Rules.shiftLeft f i j := by
  unfold Cert.Rules.shiftLeft
  by_cases h : j.val < 8191
  · rw [dif_pos h]
    refine (pad_apply_of_inside _ _ _ _ _ pads_S1024x8191_S1024x8192_000_010 h_S_ (ix2 i j) (ix2 i (⟨j.val, h⟩ : Fin 8191)) ?_).trans ?_
    · intro a
      match a with
      | ⟨0, _⟩ => show i.val = 0 + i.val * (0 + 1); omega
      | ⟨1, _⟩ => show j.val = 0 + j.val * (0 + 1); omega
    · refine extractStridedSlice_apply _ f _ (ix2 i (⟨j.val, h⟩ : Fin 8191)) _ ?_
      intro a
      match a with
      | ⟨0, _⟩ => show i.val = 0 + i.val; omega
      | ⟨1, _⟩ => show j.val + 1 = 1 + j.val; omega
  · rw [dif_neg h]
    refine (pad_apply_of_not_inside _ _ _ _ _ pads_S1024x8191_S1024x8192_000_010 h_S_ (ix2 i j) ⟨1, by decide⟩ ?_).trans ?_
    · show ¬(0 ≤ j.val ∧ (j.val - 0) % (0 + 1) = 0 ∧ (j.val - 0) / (0 + 1) < 8191)
      omega
    · show (((0#32 : BitVec 32).toInt : ℝ) : EReal) = 0
      simp

/-- The mask of positions that have a right neighbour: the column index is below 8191. -/
def hasNext : IVec S1024x8192 1 :=
  broadcastInDim S1024x8192 ![0, 1] bcast_S1x8192_S1024x8192_0_1
    (broadcastInDim S1x8192 ![1] bcast_S8192_S1x8192_1
      (cmpi .slt (iotaInDim S8192 32 0) (broadcastInDim S8192 ![] bcast_S_S8192 (constantI S_ 32 8191#32))))

theorem hasNext_apply (i : Fin 1024) (j : Fin 8192) : hasNext (ix2 i j) = 1#1 ↔ j.val < 8191 := by
  have e : (ix2 i j : S1024x8192.Idx) = ij i j := by
    funext b
    match b with
    | ⟨0, _⟩ => rfl
    | ⟨1, _⟩ => rfl
  unfold hasNext
  rw [e, bcast_cols bcast_S8192_S1x8192_1 bcast_S1x8192_S1024x8192_0_1 _ i j]
  show IntOp.cmpi .slt (BitVec.ofNat 32 j.val) 8191#32 = 1#1 ↔ _
  have hj : (BitVec.ofNat 32 j.val).toNat = j.val := by
    rw [BitVec.toNat_ofNat]; exact Nat.mod_eq_of_lt (by have := j.isLt; omega)
  rw [slt_iff_toNat (by rw [hj]; have := j.isLt; omega) (by decide), hj]
  rfl

/-! ## One-bit conditions -/

/-- The ordered "greater than" on the extended reals, as a bit. -/
theorem cmp_ogt_iff (a b : EReal) : Ideal.cmp .ogt a b = 1#1 ↔ b < a := by
  show BitVec.ofBool (decide (b < a)) = 1#1 ↔ b < a
  rw [ofBool_eq_one_iff, decide_eq_true_iff]

/-- The conjunction of two bits is set exactly when both are. -/
theorem andi_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- A select on a bit that says `P` is the `if` on `P`. -/
theorem select_of_iff {α : Type} (c : BitVec 1) (P : Prop) [Decidable P] (h : c = 1#1 ↔ P) (u v : α) :
    Scalar.select c u v = if P then u else v := by
  by_cases hp : P
  · rw [if_pos hp, h.mpr hp, select_one]
  · rw [if_neg hp, eq_zero_of_ne_one (fun e => hp (h.mp e)), select_zero]

/-! ## The composed value -/

/-- With every token below 128, the reference's operations compose to 0.6 times (the sum over all positions of the
    squared difference of logarithms, divided by 2^23): the three gathers read the tables at the tokens, the two
    selects are the two gaps, the two slice-and-pad pairs are the left shifts, and the reduction over both axes
    from zero is the sum over all positions. -/
theorem refTerm_eq (x : FVec Ideal S1024x8192 .f32) (tk : IVec S1024x8192 32) (htok : ∀ q, (tk q).toNat < 128) :
    refTerm (F := Ideal) x tk = fun _ => Cert.Rules.total (Cert.Rules.sqR x tk) := by
  unfold refTerm
  extract_lets -merge t_cst t_c t_c_0 t_c_1 t_c_2 t_c_3 t_cst_4 t_v0 t_c_5 t_v1 t_v2 t_v3 t_v4 t_v5 t_c_6 t_v6 t_c_7 t_v7 t_v8 t_v9 t_v10 t_c_8 t_v11 t_v12 t_c_9 t_v13 t_c_10 t_v14 t_v15 t_v16 t_v17 t_c_11 t_v18 t_v19 t_c_12 t_v20 t_v21 t_c_13 t_v22 t_v23 t_v24 t_v25 t_v26 t_c_14 t_v27 t_v28 t_c_15 t_v29 t_v30 t_v31 t_v32 t_v33 t_v34 t_v35 t_v36 t_cst_16 t_call0_v0 t_call0_v1 t_v37 t_v38 t_c_17 t_call1_v0 t_v39 t_v40 t_c_18 t_v41 t_v42 t_v43 t_c_19 t_v44 t_v45 t_c_20 t_v46 t_v47 t_v48 t_v49 t_v50 t_v51 t_v52 t_cst_21 t_v53 t_v54 t_v55 t_v56 t_cst_22 t_v57 t_v58 t_v59 t_cst_23 t_call2_v0 t_call2_v1 t_v60 t_v61 t_v62 t_c_24 t_call3_v0 t_v63 t_v64 t_v65 t_cst_25 t_v66 t_v67 t_v68 t_cst_26 t_v69 t_v70 t_v71 t_v72 t_v73 t_cst_27 t_v74 t_cst_28 t_v75 t_cst_29 t_v76
  -- the expected duration and the two masks at a position
  have h33 : ∀ (i : Fin 1024) (j : Fin 8192), t_v33 (ix2 i j) = Cert.Rules.expected (tk (ix2 i j)) := fun i j =>
    (take_read expTable tk i j (htok _)).trans (expTable_read _ _)
  have h26 : ∀ (i : Fin 1024) (j : Fin 8192), t_v26 (ix2 i j) = 1#1 ↔ 0 < Cert.Rules.expected (tk (ix2 i j)) := fun i j => by
    rw [show t_v26 (ix2 i j) = maskTable lit1 (ix1 ⟨(tk (ix2 i j)).toNat, htok _⟩) from
      take_read (maskTable lit1) tk i j (htok _)]
    exact (maskTable_read lit1 lit1_range lit1_inj _ _).trans (expected_pos_iff _).symm
  have h50 : ∀ (i : Fin 1024) (j : Fin 8192), t_v50 (ix2 i j) = 1#1 ↔ Cert.Rules.ratioKey (tk (ix2 i j)) := fun i j => by
    rw [show t_v50 (ix2 i j) = maskTable lit2 (ix1 ⟨(tk (ix2 i j)).toNat, htok _⟩) from
      take_read (maskTable lit2) tk i j (htok _)]
    exact (maskTable_read lit2 lit2_range lit2_inj _ _).trans (ratioKey_iff _).symm
  have h51 : ∀ (i : Fin 1024) (j : Fin 8192), t_v51 (ix2 i j) = 1#1 ↔ j.val < 8191 := fun i j => hasNext_apply i j
  have h39 : ∀ (i : Fin 1024) (j : Fin 8192), t_v39 (ix2 i j) = Cert.Rules.shiftLeft x i j := fun i j => shift_read x i j
  -- the two gaps
  have h37 : ∀ (i : Fin 1024) (j : Fin 8192), t_v37 (ix2 i j) = Cert.Rules.gap1 x tk i j := fun i j => by
    show Scalar.select (IntOp.andi (t_v26 (ix2 i j)) (Ideal.cmp .ogt (x (ix2 i j)) (t_v33 (ix2 i j))))
      (x (ix2 i j) - t_v33 (ix2 i j)) (Ideal.ofBits .f32 0x00000000#32) = _
    rw [h33, Ideal.ofBits_zero_f32]
    unfold Cert.Rules.gap1
    exact select_of_iff _ _ ((andi_one_iff _ _).trans (and_congr (h26 i j) (cmp_ogt_iff _ _))) _ _
  have h60 : ∀ (i : Fin 1024) (j : Fin 8192), t_v60 (ix2 i j) = Cert.Rules.gap2 x tk i j := fun i j => by
    show Scalar.select
      (IntOp.andi (IntOp.andi (t_v50 (ix2 i j)) (t_v51 (ix2 i j)))
        (Ideal.cmp .ogt (Ideal.ofBits .f32 0x40400000#32 * x (ix2 i j)) (t_v39 (ix2 i j))))
      (x (ix2 i j) - Ideal.div (t_v39 (ix2 i j)) (Ideal.ofBits .f32 0x40400000#32)) (Ideal.ofBits .f32 0x00000000#32) = _
    rw [h39, Ideal.ofBits_zero_f32, Cert.Rules.Consts.ofBits_three]
    unfold Cert.Rules.gap2
    exact select_of_iff _ _ ((andi_one_iff _ _).trans
      ((and_congr ((andi_one_iff _ _).trans (and_congr (h50 i j) (h51 i j))) (cmp_ogt_iff _ _)).trans and_assoc)) _ _
  -- their sum, as one array
  have h61 : (t_v61 : (Cert.Rules.SR 1024).Idx → EReal) = Cert.Rules.gaps x tk := by
    funext q
    obtain ⟨i, j, rfl⟩ : ∃ (i : Fin 1024) (j : Fin 8192), q = ix2 i j := ⟨q 0, q 1, eq_ix2 q⟩
    show t_v37 (ix2 i j) + t_v60 (ix2 i j) = _
    rw [h37, h60]
    rfl
  -- the duration after the rules, and the term of a position
  have h65 : ∀ (i : Fin 1024) (j : Fin 8192), t_v65 (ix2 i j) = Cert.Rules.rules x tk i j := fun i j => by
    show x (ix2 i j) - t_v61 (ix2 i j) + t_v63 (ix2 i j) = _
    rw [show t_v63 (ix2 i j) = Cert.Rules.shiftLeft t_v61 i j from shift_read t_v61 i j, h61]
    rfl
  have h73 : ∀ q, t_v73 q = Cert.Rules.sqR x tk q := fun q => by
    obtain ⟨i, j, rfl⟩ : ∃ (i : Fin 1024) (j : Fin 8192), q = ix2 i j := ⟨q 0, q 1, eq_ix2 q⟩
    show (Ideal.log (x (ix2 i j) + Ideal.ofBits .f32 0x3F800000#32) - Ideal.log (t_v65 (ix2 i j) + Ideal.ofBits .f32 0x3F800000#32))
        * (Ideal.log (x (ix2 i j) + Ideal.ofBits .f32 0x3F800000#32) - Ideal.log (t_v65 (ix2 i j) + Ideal.ofBits .f32 0x3F800000#32)) = _
    rw [h65, Ideal.ofBits_one_f32]
    rfl
  -- the sum over all positions and the two outer constants
  have hs : ∑ q, t_v73 q = ∑ q, Cert.Rules.sqR x tk q := Finset.sum_congr rfl fun q _ => h73 q
  funext z
  show Ideal.ofBits .f32 0x3F19999A#32
      * Ideal.div (Ideal.hostReduceAdd reducesTo_S1024x8192_S_d0_1 t_v73 (Ideal.ofBits .f32 0x00000000#32) z)
          (Ideal.ofBits .f32 0x4B000000#32) = _
  rw [Ideal.hostReduceAdd_total _ (fun b => b.elim0), Ideal.ofBits_zero_f32, zero_add, hs]
  rfl

end Cert.ReferenceIdeal.Hand

end
-- ==== Proof.Algebra.lean ====
/-
  The one law that joins the two sides: for a duration x > -1 (so that a = x + 1 is a positive real) and ANY extended
  real b, the square of log (a / b) is the square of log a - log b.

  For b a positive real this is the logarithm of a quotient. Everywhere else both squares are +∞: at b = 0 the quotient
  is +∞ and the difference is log a - (-∞); at a negative b the quotient is negative, its logarithm reads -∞, and the
  difference is again log a - (-∞); at b = ±∞ the quotient is 0, its logarithm -∞, and the difference ∓∞.
-/
import proofs.«427785_j46961172414632_3_alg».proof.Proof.Spec
import Mathlib.Analysis.SpecialFunctions.Log.Basic
import Mathlib.Data.EReal.Inv

noncomputable section

namespace Cert.Rules

open Idealize.ShloMosaic

theorem log_coe (r : ℝ) : Ideal.log (r : EReal) = if r ≤ 0 then ⊥ else ((Real.log r : ℝ) : EReal) := rfl
theorem log_bot : Ideal.log ⊥ = ⊥ := rfl
theorem log_top : Ideal.log ⊤ = ⊤ := rfl

theorem log_zero : Ideal.log 0 = ⊥ := by
  rw [← EReal.coe_zero, log_coe, if_pos le_rfl]

theorem log_pos {r : ℝ} (h : 0 < r) : Ideal.log (r : EReal) = ((Real.log r : ℝ) : EReal) := by
  rw [log_coe, if_neg (not_le.mpr h)]

theorem log_nonpos {r : ℝ} (h : r ≤ 0) : Ideal.log (r : EReal) = ⊥ := by
  rw [log_coe, if_pos h]

/-- The quotient of a real by a nonzero real is the real quotient. -/
theorem div_coe_coe (a r : ℝ) (hr : r ≠ 0) : Ideal.div (a : EReal) (r : EReal) = ((a * r⁻¹ : ℝ) : EReal) := by
  unfold Ideal.div
  rw [if_neg (by exact_mod_cast hr), ← EReal.coe_inv, ← EReal.coe_mul]

theorem sq_log_div (a : ℝ) (ha : 0 < a) (b : EReal) :
    Ideal.log (Ideal.div (a : EReal) b) * Ideal.log (Ideal.div (a : EReal) b)
      = (Ideal.log (a : EReal) - Ideal.log b) * (Ideal.log (a : EReal) - Ideal.log b) := by
  rw [log_pos ha]
  induction b using EReal.rec with
  | bot =>
    have hd : Ideal.div (a : EReal) ⊥ = 0 := by
      unfold Ideal.div; rw [if_neg EReal.bot_ne_zero, EReal.inv_bot, mul_zero]
    rw [hd, log_zero, log_bot, EReal.coe_sub_bot, EReal.bot_mul_bot, EReal.top_mul_top]
  | top =>
    have hd : Ideal.div (a : EReal) ⊤ = 0 := by
      unfold Ideal.div; rw [if_neg EReal.top_ne_zero, EReal.inv_top, mul_zero]
    rw [hd, log_zero, log_top, EReal.sub_top, EReal.bot_mul_bot]
  | coe r =>
    rcases lt_trichotomy r 0 with h | h | h
    · have hq : a * r⁻¹ ≤ 0 := (mul_neg_of_pos_of_neg ha (inv_lt_zero.mpr h)).le
      rw [div_coe_coe a r h.ne, log_nonpos hq, log_nonpos h.le, EReal.coe_sub_bot, EReal.bot_mul_bot, EReal.top_mul_top]
    · subst h
      have hd : Ideal.div (a : EReal) ((0 : ℝ) : EReal) = ⊤ := by
        unfold Ideal.div; rw [if_pos EReal.coe_zero, if_pos (by exact_mod_cast ha)]
      rw [hd, log_top, log_nonpos le_rfl, EReal.coe_sub_bot]
    · have hq : 0 < a * r⁻¹ := mul_pos ha (inv_pos.mpr h)
      rw [div_coe_coe a r h.ne', log_pos hq, log_pos h, ← EReal.coe_sub, Real.log_mul ha.ne' (inv_ne_zero h.ne'),
        Real.log_inv, ← sub_eq_add_neg]

/-- At a position whose duration is a real above -1 the kernel's term is the reference's. -/
theorem sqK_eq_sqR {n : Nat} (x : (SR n).Idx → EReal) (tk : (SR n).Idx → BitVec 32) (q : (SR n).Idx)
    (hx : ∃ r : ℝ, x q = (r : EReal) ∧ -1 < r) : sqK x tk q = sqR x tk q := by
  obtain ⟨r, hr, hlt⟩ := hx
  unfold sqK sqR
  have h1 : x q + 1 = ((r + 1 : ℝ) : EReal) := by rw [hr, EReal.coe_add, EReal.coe_one]
  rw [h1]
  exact sq_log_div (r + 1) (by linarith) _

end Cert.Rules

end
-- ==== Proof.PreFacts.lean ====
/-
  The precondition read: every duration is a real number above -1 and every token lies in [0, 128).

  The predicate is the conjunction of two "for all positions": |x| < +∞, and (0 ≤ tok signed) ∧ (tok < 128 signed) ∧
  (x > -1). A word that is non-negative as a signed number and below 128 is below 128 as a natural number; an
  extended real whose absolute value is below +∞ is a real.
-/
import proofs.«427785_j46961172414632_3_alg».proof.Pre_finite_inputs
import proofs.«427785_j46961172414632_3_alg».proof.Proof.Consts
import Idealize.ShloMosaic.Lib.ReduceAll
import Idealize.ShloMosaic.Lib.Affine
import Idealize.ShloMosaic.Lib.ValueIdx
import Idealize.ShloMosaic.Lib.StableHlo.Predicate

noncomputable section

namespace Cert.Rules

open Idealize.ShloMosaic Idealize.ShloMosaic.ValueIdx

instance : Subsingleton Cert.Pre_finite_inputs.S_.Idx := ⟨fun a b => funext fun d => d.elim0⟩

/-- The word of +∞. -/
theorem ofBits_inf : Ideal.ofBits .f32 0x7F800000#32 = ⊤ := by
  simp [Ideal.ofBits, Ideal.ieee]

theorem cmp_olt {u v : EReal} (h : Ideal.cmp .olt u v = 1#1) : u < v := by
  unfold Ideal.cmp at h
  exact of_decide_eq_true ((StableHlo.Predicate.ofBool_eq_one_iff _).1 h)

theorem cmp_ogt {u v : EReal} (h : Ideal.cmp .ogt u v = 1#1) : v < u := by
  unfold Ideal.cmp at h
  exact of_decide_eq_true ((StableHlo.Predicate.ofBool_eq_one_iff _).1 h)

/-- A word that is at least 0 and below 128 as a signed number is below 128 as a natural number. -/
theorem toNat_lt_of_signed (w : BitVec 32) (h0 : (0#32).toInt ≤ w.toInt) (h1 : w.toInt < (128#32).toInt) : w.toNat < 128 := by
  have e0 : (0#32 : BitVec 32).toInt = 0 := by decide
  have e1 : (128#32 : BitVec 32).toInt = 128 := by decide
  rw [e0] at h0; rw [e1] at h1
  rw [BitVec.toInt_eq_toNat_cond] at h0 h1
  have := w.isLt
  split at h0 <;> omega

theorem of_pre [Cert.Pre_finite_inputs.Facts] (x : FVec Ideal Cert.Pre_finite_inputs.S1024x8192 .f32) (tk : IVec Cert.Pre_finite_inputs.S1024x8192 32)
    (h : Cert.Pre_finite_inputs.fn (F := Ideal) x tk = fun _ => 1#1) :
    (∀ q, ∃ r : ℝ, x q = (r : EReal) ∧ -1 < r) ∧ (∀ q, (tk q).toNat < 128) := by
  have h0 := congrFun h ix0
  dsimp only [Cert.Pre_finite_inputs.fn] at h0
  obtain ⟨hA, hB⟩ := IntOp.andi_eq_one.1 h0
  have eA := fun q => Host.reduce_andi_all _ _ _ _ _ hA q
  have eB := fun q => Host.reduce_andi_all _ _ _ _ _ hB q
  have fin : ∀ q, max (x q) (-(x q)) < Ideal.ofBits .f32 0x7F800000#32 := fun q => cmp_olt (eA q)
  have lo : ∀ q, Ideal.ofBits .f32 0xBF800000#32 < x q := fun q => cmp_ogt (IntOp.andi_eq_one.1 (eB q)).2
  have t0 : ∀ q, (0#32).toInt ≤ (tk q).toInt := fun q => IntOp.cmpi_sge.1 (IntOp.andi_eq_one.1 (IntOp.andi_eq_one.1 (eB q)).1).1
  have t1 : ∀ q, (tk q).toInt < (128#32).toInt := fun q => IntOp.cmpi_slt.1 (IntOp.andi_eq_one.1 (IntOp.andi_eq_one.1 (eB q)).1).2
  refine ⟨fun q => ?_, fun q => toNat_lt_of_signed _ (t0 q) (t1 q)⟩
  have hf := fin q
  have hl := lo q
  rw [ofBits_inf] at hf
  rw [Consts.ofBits_neg_one] at hl
  have hx1 : x q ≠ ⊤ := fun e => by rw [e] at hf; exact absurd hf (by simp)
  have hx2 : x q ≠ ⊥ := fun e => by rw [e] at hl; exact absurd hl (by simp)
  refine ⟨(x q).toReal, (EReal.coe_toReal hx1 hx2).symm, ?_⟩
  have : ((-1 : ℝ) : EReal) < ((x q).toReal : EReal) := by
    rw [EReal.coe_toReal hx1 hx2, EReal.coe_neg, EReal.coe_one]; exact hl
  exact_mod_cast this

end Cert.Rules

end
-- ==== Proof.lean ====
/-
  The kernel and its reference compute one number from a [1024, 8192] array of durations x and an array of tokens:
  0.6 times the mean over all positions of a squared logarithmic difference between x and the duration the two rules
  make of it (Proof/Spec.lean). The kernel takes ONE logarithm, of the quotient (x + 1) / (rules + 1), tile by tile, and
  leaves each tile's sum in one cell of a small array that the host then adds up; the reference subtracts TWO
  logarithms and takes the mean of the whole array.

  Under the precondition — every duration a real number above -1, every token inside the 128-entry tables — the two
  squares agree at every position (Proof/Algebra.lean: for a positive real a and ANY extended real b the square of
  log (a / b) is the square of log a - log b), the reference's table look-ups are the kernel's comparisons against the
  six keys (Proof/RefRead.lean), a tile of whole rows computes the array's values on its rows (Proof/SpecRows.lean),
  and a sum may be taken in any grouping. The three frames are the generated frames of the two kernel programs and the
  reference's run with its value dropped; the idealization rewrote nothing, so it preserves trivially.
-/
import proofs.«427785_j46961172414632_3_alg».proof.Defs
import proofs.«427785_j46961172414632_3_alg».proof.Proof.Gen.Kernel
import proofs.«427785_j46961172414632_3_alg».proof.Proof.Gen.Kernel.Skeleton
import proofs.«427785_j46961172414632_3_alg».proof.Proof.Gen.Kernel.Launch
import proofs.«427785_j46961172414632_3_alg».proof.Proof.Gen.Kernel.Points
import proofs.«427785_j46961172414632_3_alg».proof.Proof.Gen.Kernel.Frame
import proofs.«427785_j46961172414632_3_alg».proof.Proof.Gen.KernelIdeal
import proofs.«427785_j46961172414632_3_alg».proof.Proof.Gen.KernelIdeal.Skeleton
import proofs.«427785_j46961172414632_3_alg».proof.Proof.Gen.KernelIdeal.Launch
import proofs.«427785_j46961172414632_3_alg».proof.Proof.Gen.KernelIdeal.Points
import proofs.«427785_j46961172414632_3_alg».proof.Proof.Gen.KernelIdeal.Frame
import proofs.«427785_j46961172414632_3_alg».proof.Proof.Gen.ReferenceIdeal
import proofs.«427785_j46961172414632_3_alg».proof.Proof.Gen.Pre_finite_inputs
import proofs.«427785_j46961172414632_3_alg».proof.Proof.KerArray
import proofs.«427785_j46961172414632_3_alg».proof.Proof.RefRun
import proofs.«427785_j46961172414632_3_alg».proof.Proof.RefRead
import proofs.«427785_j46961172414632_3_alg».proof.Proof.Algebra
import proofs.«427785_j46961172414632_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its value dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both programs end at the specification's total: the kernel's of the squared logarithm of the quotient, the
    reference's of the squared difference of logarithms, equal position by position under the precondition. -/
theorem algebraic : Cert.algebraic_KernelIdeal_ReferenceIdeal := by
  intro m ρ m' ρ' hpre hagree
  refine ⟨fun c => fun _ => Cert.Rules.total (Cert.Rules.sqK
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  obtain ⟨hreal, htok⟩ := Cert.Rules.of_pre _ _ (hpre c)
  rw [Cert.ReferenceIdeal.Hand.refTerm_eq _ _ htok]
  funext _
  unfold Cert.Rules.total
  rw [Finset.sum_congr rfl fun q _ => (Cert.Rules.sqK_eq_sqR _ _ q (hreal q)).symm]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
